-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "a_exact_1" .f32 0x3F800000#32 ((1 : ℝ) : EReal)
  ∧ IdealRules.named_const.Statement Cert.KernelIdeal.κ "one_plus_eps" .f32 0x3F800001#32 ((140737502429077 / 140737488355328 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def fn_part1 {F : FTy → Type} [FloatOps F] (main_v0 : FVec F S8192x8192 .f32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_cst_6 : FVec F S_ .f32 := constant S_ .f32 0x00000000#32
  let main_v18 : FVec F S8192x8192 .f32 := broadcastInDim S8192x8192 ![] bcast_S_S8192x8192 main_cst_6
  let main_v19 : IVec S8192x8192 1 := cmpf .oge main_v0 main_v18
  let main_c_7 : IVec S_ 1 := constantI S_ 1 1#1
  let main_v20 : IVec S_ 1 := (fun x v => Host.reduce IntOp.andi x v reducesTo_S8192x8192_S_d0_1 h_S_) main_v19 main_c_7
  let main_v21 : IVec S_ 1 := andi main_v17 main_v20
  let main_cst_8 : FVec F S_ .f32 := constant S_ .f32 0x3F800000#32
  let main_v22 : FVec F S8192x8192 .f32 := broadcastInDim S8192x8192 ![] bcast_S_S8192x8192 main_cst_8
  let main_v23 : IVec S8192x8192 1 := cmpf .ole main_v0 main_v22
  let main_c_9 : IVec S_ 1 := constantI S_ 1 1#1
  let main_v24 : IVec S_ 1 := (fun x v => Host.reduce IntOp.andi x v reducesTo_S8192x8192_S_d0_1 h_S_) main_v23 main_c_9
  let main_v25 : IVec S_ 1 := andi main_v21 main_v24
  main_v25

def fn {F : FTy → Type} [FloatOps F] (main_arg0 : IVec S8192 32) (main_arg1 : IVec S8192 32) (main_arg2 : IVec S8192 32) (main_arg3 : IVec S8192 32) (main_arg4 : FVec F S8192x256 .f32) (main_arg5 : FVec F S8192x256 .f32) : IVec S_ 1 :=
  let main_v0 : FVec F S8192x8192 .f32 := (fun l r => Host.dotGeneral dot_S8192x256_S8192x256_S8192x8192_1_1_0_0_n_n none l r) main_arg5 main_arg4
  let main_v1 : FVec F S8192x256 .f32 := Host.absf main_arg4
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S8192x256 .f32 := Host.absf main_arg5
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v4 main_v8
  let main_c_2 : IVec S_ 32 := constantI S_ 32 0#32
  let main_v10 : IVec S8192 32 := broadcastInDim S8192 ![] bcast_S_S8192 main_c_2
  let main_v11 : IVec S8192 1 := cmpi .sge main_arg0 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v9 main_v12
  let main_c_4 : IVec S_ 32 := constantI S_ 32 0#32
  let main_v14 : IVec S8192 32 := broadcastInDim S8192 ![] bcast_S_S8192 main_c_4
  let main_v15 : IVec S8192 1 := cmpi .sge main_arg1 main_v14
  let main_c_5 : IVec S_ 1 := constantI S_ 1 1#1
  fn_part1 (F := F) main_v0 main_v13 main_v15 main_c_5
-- ==== Kernel.lean ====
abbrev S8192 : Shape := ⟨1, ![8192]⟩
abbrev S8192x256 : Shape := ⟨2, ![8192, 256]⟩
abbrev S_ : Shape := ⟨0, ![]⟩
abbrev S8192x1 : Shape := ⟨2, ![8192, 1]⟩
abbrev S1x8192 : Shape := ⟨2, ![1, 8192]⟩
abbrev S4x8x128 : Shape := ⟨3, ![4, 8, 128]⟩
abbrev S2048x256 : Shape := ⟨2, ![2048, 256]⟩
abbrev S1024x256 : Shape := ⟨2, ![1024, 256]⟩
abbrev S2048x1 : Shape := ⟨2, ![2048, 1]⟩
abbrev S1x1024 : Shape := ⟨2, ![1, 1024]⟩
abbrev S1x8x128 : Shape := ⟨3, ![1, 8, 128]⟩
abbrev S1x1 : Shape := ⟨2, ![1, 1]⟩
abbrev S2048x1024 : Shape := ⟨2, ![2048, 1024]⟩
abbrev S1024 : Shape := ⟨1, ![1024]⟩
abbrev S1 : Shape := ⟨1, ![1]⟩
abbrev S4x1x1 : Shape := ⟨3, ![4, 1, 1]⟩
abbrev S4 : Shape := ⟨1, ![4]⟩

abbrev nBuf : Space → Nat
  | .hbm => 33
  | .vmem => 11
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192x256, .f32⟩
  | .hbm, ⟨5, _⟩ => ⟨S8192x256, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S1x8192, .i32⟩
  | .hbm, ⟨22, _⟩ => ⟨S8192x256, .bf16⟩
  | .hbm, ⟨23, _⟩ => ⟨S8192x256, .bf16⟩
  | .hbm, ⟨24, _⟩ => ⟨S4x8x128, .f32⟩
  | .hbm, ⟨25, _⟩ => ⟨S4x1x1, .f32⟩
  | .hbm, ⟨26, _⟩ => ⟨S4, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .i32⟩
  | .local _ .vmem, ⟨5, _⟩ => ⟨S2048x1, .i32⟩
  | .local _ .vmem, ⟨6, _⟩ => ⟨S1x1024, .i32⟩
  | .local _ .vmem, ⟨7, _⟩ => ⟨S1x1024, .i32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_3 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  shapeCasts_S8192_S8192x1 : S8192.ShapeCasts S8192x1
  shapeCasts_S8192_S1x8192 : S8192.ShapeCasts S1x8192
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x256 : Shape := ⟨2, ![8192, 256]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192x256, .f32⟩
  | .hbm, ⟨5, _⟩ => ⟨S8192x256, .f32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8192x1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S8192x8192, .i1⟩
  | .hbm, ⟨16, _⟩ => ⟨S8192x8192, .i1⟩
  | .hbm, ⟨17, _⟩ => ⟨S1x8192, .i32⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S8192x8192, .i1⟩
  | .hbm, ⟨22, _⟩ => ⟨S8192x8192, .i1⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S_S1x8192 : S_.BroadcastsInDim S1x8192 (![] : Fin 0 → Fin S1x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What one grid point leaves behind, as values.

  The body keeps a one-element accumulator between grid points.  At the first point of a tile row it stores
  zero, reads it back and stores the updated accumulator; at the other points it reads the accumulator the
  point before left and stores the update; at the last point of a tile row it also reads the updated
  accumulator back and stores its broadcast into the output block.  Each buffer's contents after the body
  are the canonical form of its covering stores, and the loads inside them read whole buffers, so they are
  the body's payload terms applied to the four input blocks and the accumulator:
    accumulator  =  cast (update blocks acc),   output block  =  splat (cast (update blocks acc)),
  with acc the stored zero at a first point.
-/
import proofs.«428891_j80496277062328_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.PairLoss.Kernel

open Cert.KernelIdeal Cert.KernelIdeal.Gen

variable {F : FTy → Type} [FloatOps F] [Named F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of a tile row: the accumulator becomes the update of what the point before left. -/
theorem scratch_B (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i) (x0 : Vec F S2048x256 .bf16) (x1 : Vec F S1024x256 .bf16) (x2 : Vec F S2048x1 .i32) (x3 : Vec F S1x1024 .i32) (xs0 : Vec F S1x1 .f32) :
    sout0_B_0 c i arg2 harg2 arg3 harg3 arg4 harg4 arg5 harg5 arg6 harg6 arg7 harg7 hc0 hc1 x0 x1 x2 x3 xs0 = k0_pay1 (k0_pay4 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S2048x256) hz2, View.ld_unit_zero (S := S1024x256) hz2, View.ld_unit_zero (S := S2048x1) hz2,
    View.ld_unit_zero (S := S1x1024) hz2, View.ld_unit_zero (S := S1x1) hz2, View.ld_unit_zero (S := S1x8x128) hz3]

/-- The last point of a tile row updates the accumulator the same way, -/
theorem scratch_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 : Vec F S2048x256 .bf16) (x1 : Vec F S1024x256 .bf16) (x2 : Vec F S2048x1 .i32) (x3 : Vec F S1x1024 .i32) (xs0 : Vec F S1x1 .f32) :
    sout0_C_0 c i arg2 harg2 arg3 harg3 arg4 harg4 arg5 harg5 arg6 harg6 arg7 harg7 hc0 hc1 x0 x1 x2 x3 xs0 = k0_pay1 (k0_pay4 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S2048x256) hz2, View.ld_unit_zero (S := S1024x256) hz2, View.ld_unit_zero (S := S2048x1) hz2,
    View.ld_unit_zero (S := S1x1024) hz2, View.ld_unit_zero (S := S1x1) hz2, View.ld_unit_zero (S := S1x8x128) hz3]

/-- and stores the splat of the updated accumulator (read back from the buffer it was just stored in) into the output block. -/
theorem out_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 : Vec F S2048x256 .bf16) (x1 : Vec F S1024x256 .bf16) (x2 : Vec F S2048x1 .i32) (x3 : Vec F S1x1024 .i32) (xs0 : Vec F S1x1 .f32) :
    out0_C_4 c i arg2 harg2 arg3 harg3 arg4 harg4 arg5 harg5 arg6 harg6 arg7 harg7 hc0 hc1 x0 x1 x2 x3 xs0 = k0_pay2 (k0_pay1 (k0_pay4 x0 x1 x2 x3 xs0)) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread,
    View.ld_unit_zero (S := S2048x256) hz2, View.ld_unit_zero (S := S1024x256) hz2, View.ld_unit_zero (S := S2048x1) hz2,
    View.ld_unit_zero (S := S1x1024) hz2, View.ld_unit_zero (S := S1x1) hz2, View.ld_unit_zero (S := S1x8x128) hz3, View.readCov_unit_zero (S := S1x1) _ hz2]

/-- The first point of a tile row: the update of the stored zero. -/
theorem scratch_A (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i) (x0 : Vec F S2048x256 .bf16) (x1 : Vec F S1024x256 .bf16) (x2 : Vec F S2048x1 .i32) (x3 : Vec F S1x1024 .i32) :
    sout0_A_0 c i arg2 harg2 arg3 harg3 arg4 harg4 arg5 harg5 arg6 harg6 arg7 harg7 hc0 hc1 x0 x1 x2 x3 = k0_pay1 (k0_pay4 x0 x1 x2 x3 (k0_pay3 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread,
    View.ld_unit_zero (S := S2048x256) hz2, View.ld_unit_zero (S := S1024x256) hz2, View.ld_unit_zero (S := S2048x1) hz2,
    View.ld_unit_zero (S := S1x1024) hz2, View.ld_unit_zero (S := S1x1) hz2, View.ld_unit_zero (S := S1x8x128) hz3]

end Cert.PairLoss.Kernel
end
-- ==== Proof.Spec.lean ====
/-
  The pairwise cross-entropy mean, as one function of the six argument arrays.

  For labels gt1, gt2, masks mk1, mk2 (all of length 8192) and two 8192 x 256 matrices p1, p2, the pair
  (j, i) has the product  P j i = sum_k p2 (j, k) * p1 (i, k),  the target "gt2 j = gt1 i and both masks
  are one", and contributes  log (P + s)  when the target holds and  log (1 - P + s)  when it does not,
  where s = 14073749 / 2^47 is the shift both programs add.  The result is minus the mean of these
  2^26 logarithms.  On the domain where every product lies in [0, 1] each logarithm is that of a real in
  [s, 1 + s], so the whole computation is one of real numbers; the lemmas below say so for the two
  spellings of a pair's term (a sum of two masked logarithms; one logarithm of a selected, clipped
  argument).
-/
import Idealize.ShloMosaic.PureOps.Ideal
import Idealize.ShloMosaic.Lib.ValueIdx
import Mathlib.Analysis.SpecialFunctions.Log.Basic

noncomputable section

namespace Cert.PairLoss

open Idealize.ShloMosaic Idealize.ShloMosaic.ValueIdx

abbrev Sh8192 : Shape := ⟨1, ![8192]⟩
abbrev Sh8192x256 : Shape := ⟨2, ![8192, 256]⟩

/-- The shift under both logarithms, 14073749 / 2^47 (the single-precision neighbour of 1e-7). -/
def shift : ℝ := 14073749 / 140737488355328

theorem shift_pos : 0 < shift := by unfold shift; norm_num

/-- One plus the shift, as the fraction in lowest terms. -/
theorem one_add_shift : (140737502429077 / 140737488355328 : ℝ) = 1 + shift := by unfold shift; norm_num

section
variable (gt1 gt2 mk1 mk2 : Sh8192.Idx → BitVec 32) (p1 p2 : Sh8192x256.Idx → EReal)

/-- The product of row j of p2 with row i of p1. -/
def pairDot (j i : Fin 8192) : EReal := ∑ k : Fin 256, p2 (ix2 j k) * p1 (ix2 i k)

/-- The pair's target: equal labels, and both rows unmasked. -/
def Hit (j i : Fin 8192) : Prop := gt2 (ix1 j) = gt1 (ix1 i) ∧ mk2 (ix1 j) = 1#32 ∧ mk1 (ix1 i) = 1#32

open Classical in
/-- The real number under the pair's logarithm. -/
def logArg (j i : Fin 8192) : ℝ :=
  if Hit gt1 gt2 mk1 mk2 j i then (pairDot p1 p2 j i).toReal + shift else 1 - (pairDot p1 p2 j i).toReal + shift

/-- The pair's logarithm. -/
def pairLog (j i : Fin 8192) : ℝ := Real.log (logArg gt1 gt2 mk1 mk2 p1 p2 j i)

/-- Minus the mean of the 2^26 logarithms. -/
def meanLoss : EReal := ((-(∑ j : Fin 8192, ∑ i : Fin 8192, pairLog gt1 gt2 mk1 mk2 p1 p2 j i) / 67108864 : ℝ) : EReal)

/-- The domain: labels are non-negative class numbers, and every pairwise product is a probability. -/
structure Dom : Prop where
  gt1_nonneg : ∀ i : Fin 8192, 0 ≤ (gt1 (ix1 i)).toInt
  gt2_nonneg : ∀ j : Fin 8192, 0 ≤ (gt2 (ix1 j)).toInt
  dot_range : ∀ j i : Fin 8192, 0 ≤ pairDot p1 p2 j i ∧ pairDot p1 p2 j i ≤ 1

end

/-- An extended real between 0 and 1 is a real between 0 and 1. -/
theorem real_of_range {x : EReal} (h0 : 0 ≤ x) (h1 : x ≤ 1) : ∃ r : ℝ, x = (r : EReal) ∧ 0 ≤ r ∧ r ≤ 1 := by
  induction x using EReal.rec with
  | bot => exact absurd h0 (not_le.2 EReal.bot_lt_zero)
  | top => exact absurd h1 (not_le.2 (by exact_mod_cast EReal.coe_lt_top 1))
  | coe r => exact ⟨r, rfl, by exact_mod_cast h0, by exact_mod_cast h1⟩

/-- The logarithm of a positive real. -/
theorem log_pos_coe {r : ℝ} (h : 0 < r) : Ideal.log (r : EReal) = ((Real.log r : ℝ) : EReal) := by
  rw [Ideal.log_coe, if_neg (not_le.2 h)]

/-- On [0, 1] the clip to [0, c], c ≥ 1, does nothing. -/
theorem clip_id {r c : ℝ} (h0 : 0 ≤ r) (h1 : r ≤ 1) (hc : 1 ≤ c) :
    min (c : EReal) (max (0 : EReal) (r : EReal)) = (r : EReal) := by
  rw [max_eq_right (by exact_mod_cast h0), min_eq_right (by exact_mod_cast h1.trans hc)]

/-! ## The sentinel codes

A masked-out row of the first kind is coded -1 and one of the second kind -2; a non-negative label is
neither, so two codes agree exactly when the labels agree and neither row is masked out. -/

theorem code_eq_iff {g2 g1 m2 m1 : BitVec 32} (h2 : 0 ≤ g2.toInt) (h1 : 0 ≤ g1.toInt) :
    (if m2 = 1#32 then g2 else 4294967295#32) = (if m1 = 1#32 then g1 else 4294967294#32)
      ↔ (g2 = g1 ∧ m2 = 1#32 ∧ m1 = 1#32) := by
  have e1 : (4294967295#32 : BitVec 32).toInt = -1 := by decide
  have e2 : (4294967294#32 : BitVec 32).toInt = -2 := by decide
  by_cases c2 : m2 = 1#32 <;> by_cases c1 : m1 = 1#32
  · simp [c2, c1]
  · simp only [c2, c1, if_true, if_false, and_false, and_true, iff_false]
    intro h; rw [h, e2] at h2; omega
  · simp only [c2, c1, if_true, if_false, and_false, false_and, iff_false]
    intro h; rw [← h, e1] at h1; omega
  · simp only [c2, c1, if_false, and_false, iff_false]
    decide

section
variable {gt1 gt2 mk1 mk2 : Sh8192.Idx → BitVec 32} {p1 p2 : Sh8192x256.Idx → EReal}

/-- The pair's logarithm when the target holds. -/
theorem log_hit (hd : Dom gt1 gt2 p1 p2) {j i : Fin 8192} (h : Hit gt1 gt2 mk1 mk2 j i) :
    Ideal.log (pairDot p1 p2 j i + (shift : EReal)) = ((pairLog gt1 gt2 mk1 mk2 p1 p2 j i : ℝ) : EReal) := by
  obtain ⟨r, hr, h0, h1⟩ := real_of_range (hd.dot_range j i).1 (hd.dot_range j i).2
  unfold pairLog logArg
  rw [if_pos h, hr, EReal.toReal_coe, ← EReal.coe_add, log_pos_coe (by have := shift_pos; linarith)]

/-- The pair's logarithm when the target fails, in the spelling (1 - P) + s. -/
theorem log_miss (hd : Dom gt1 gt2 p1 p2) {j i : Fin 8192} (h : ¬Hit gt1 gt2 mk1 mk2 j i) :
    Ideal.log (((1 : EReal) - pairDot p1 p2 j i) + (shift : EReal)) = ((pairLog gt1 gt2 mk1 mk2 p1 p2 j i : ℝ) : EReal) := by
  obtain ⟨r, hr, h0, h1⟩ := real_of_range (hd.dot_range j i).1 (hd.dot_range j i).2
  unfold pairLog logArg
  rw [if_neg h, hr, EReal.toReal_coe, show ((1 : EReal) - (r : EReal)) = ((1 - r : ℝ) : EReal) by norm_cast,
    ← EReal.coe_add, log_pos_coe (by have := shift_pos; linarith)]

/-- The same in the spelling (1 + s) - P. -/
theorem log_miss' (hd : Dom gt1 gt2 p1 p2) {j i : Fin 8192} (h : ¬Hit gt1 gt2 mk1 mk2 j i) :
    Ideal.log (((1 + shift : ℝ) : EReal) - pairDot p1 p2 j i) = ((pairLog gt1 gt2 mk1 mk2 p1 p2 j i : ℝ) : EReal) := by
  obtain ⟨r, hr, h0, h1⟩ := real_of_range (hd.dot_range j i).1 (hd.dot_range j i).2
  unfold pairLog logArg
  rw [if_neg h, hr, EReal.toReal_coe, ← EReal.coe_sub, show 1 + shift - r = 1 - r + shift by ring,
    log_pos_coe (by have := shift_pos; linarith)]

end

end Cert.PairLoss

end
-- ==== Proof.Consts.lean ====
/-
  The float words the two programs spell, as the extended reals they denote.  All are exact dyadic
  rationals: zero, one, the small shift 14073749 / 2^47 that both programs add under their logarithms,
  and the two powers of two of the final division (8192 and 8192 * 8192 = 2^26).
-/
import Idealize.ShloMosaic.PureOps.Ideal

noncomputable section

namespace Cert.PairLoss.Consts

open Idealize.ShloMosaic

/-- The word of +0.0 is the real zero. -/
theorem ofBits_zero : Ideal.ofBits .f32 0x00000000#32 = 0 := by
  simp [Ideal.ofBits, Ideal.ieee]

/-- The word of 1.0 is the real one. -/
theorem ofBits_one : Ideal.ofBits .f32 0x3F800000#32 = 1 := by
  simp [Ideal.ofBits, Ideal.ieee, -EReal.coe_mul]; norm_num

/-- The shift under the logarithms: the single-precision neighbour of 1e-7, exactly 14073749 / 2^47. -/
theorem ofBits_shift : Ideal.ofBits .f32 0x33D6BF95#32 = ((14073749 / 140737488355328 : ℝ) : EReal) := by
  simp [Ideal.ofBits, Ideal.ieee, -EReal.coe_mul]; norm_num

/-- 8192.0 is the real 8192. -/
theorem ofBits_8192 : Ideal.ofBits .f32 0x46000000#32 = ((8192 : ℝ) : EReal) := by
  simp [Ideal.ofBits, Ideal.ieee, -EReal.coe_mul]; norm_num

/-- 2^26 = 8192 * 8192, the number of pairs. -/
theorem ofBits_pairs : Ideal.ofBits .f32 0x4C800000#32 = ((67108864 : ℝ) : EReal) := by
  simp [Ideal.ofBits, Ideal.ieee, -EReal.coe_mul]; norm_num

end Cert.PairLoss.Consts

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.TileValue.lean ====
/-
  One grid point's arithmetic, at the extended reals: the accumulator plus minus the tile's sum of
  logarithms.  The body multiplies the two loaded blocks (a 2048 x 256 by a 1024 x 256, contracting the
  256), clips the products to [0, 1], selects  clip + s  or  c - clip  by the equality of the two code
  columns, takes the logarithm, sums the 2048 rows and then the 1024 columns, and adds zero minus that
  sum to the accumulator it loaded.

  Every operation but five acts element by element, so it is read at an index by unfolding.  The five
  that move indices are read one lemma each: the product (entry (p, q) is the sum over k of row p of the
  first block times row q of the second), the two spreads of the code blocks (a column over the columns,
  a row over the rows), and the two sums (down the rows, leaving one entry per column; then along the
  one row that is left).  The main statement composes them from the outside in.
-/
import proofs.«428891_j80496277062328_3_alg».proof.Proof.Gen.KernelIdeal.Skeleton
import proofs.«428891_j80496277062328_3_alg».proof.Proof.Spec
import proofs.«428891_j80496277062328_3_alg».proof.Proof.Consts
import proofs.«428891_j80496277062328_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.PairLoss

open Idealize.ShloMosaic Idealize.ShloMosaic.ValueIdx Cert.KernelIdeal Cert.KernelIdeal.Gen

/-- The named constant of the body, 1 + s as a fraction in lowest terms. -/
abbrev cOne : ℝ := 140737502429077 / 140737488355328

/-! ## The product of the two blocks at an entry

The contraction has one axis, so its index is one coordinate k below 256.  On the first operand the
output's row is axis 0 and k is axis 1; on the second operand the output's column is axis 0 and k is
axis 1. -/

/-- The first operand's row is the output's row. -/
theorem lhs_row (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl

/-- The first operand's column is the contraction's coordinate. -/
theorem lhs_col (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q

/-- The second operand's row is the output's column. -/
theorem rhs_row (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl

/-- The second operand's column is the contraction's coordinate. -/
theorem rhs_col (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- Entry (p, q) of the product into the zero block: the sum over k of a (p, k) * b (q, k). -/
theorem product_at (a : FVec Ideal S2048x256 .bf16) (b : FVec Ideal S1024x256 .bf16) (p : Fin 2048) (q : Fin 1024) :
    matmul dot_S2048x256_S1024x256_S2048x1024_1_1_0_0_n_n none a b (constant (F := Ideal) S2048x1024 .f32 0x00000000#32) (ix2 p q)
      = ∑ k : Fin 256, a (ix2 p k) * b (ix2 q k) := by
  show FloatOps.matmul dot_S2048x256_S1024x256_S2048x1024_1_1_0_0_n_n none a b (constant (F := Ideal) S2048x1024 .f32 0x00000000#32) (ix2 p q) = _
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun c => Fin.ext (by
    match c with
    | ⟨0, _⟩ => exact lhs_row _ _
    | ⟨1, _⟩ => exact (lhs_col _ _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun c => Fin.ext (by
    match c with
    | ⟨0, _⟩ => exact rhs_row _ _
    | ⟨1, _⟩ => exact (rhs_col _ _).trans hk)
  rw [el, er]

/-! ## The two sums

Summing a 2048 x 1024 block down its rows leaves, at column q, the sum over p of the entries (p, q);
summing the 1 x 1024 row that is left along its columns leaves the sum over q of its entries. -/

/-- The sum down the rows, at column q. -/
theorem sum_rows_at (x : FVec Ideal S2048x1024 .f32) (h : S2048x1024.Reduces [0] S1024) (hφ : FKind.Formats .f32)
    (hacc : (0x00000000#32 : BitVec 32) = 0x00000000#32) (q : Fin 1024) :
    multiReduction (F := Ideal) .add [0] S1024 x 0x00000000#32 h hφ hacc (ix1 q) = ∑ p : Fin 2048, x (ix2 p q) := by
  refine (Ideal.multiReduction_add_single x 0x00000000#32 h hφ hacc (ix1 q)).trans ?_
  refine Finset.sum_congr rfl fun p _ => congrArg x (funext fun c => Fin.ext ?_)
  match c with
  | ⟨0, _⟩ => rfl
  | ⟨1, _⟩ => rfl

/-- The sum along the one row, at its one entry. -/
theorem sum_cols_at (x : FVec Ideal S1x1024 .f32) (h : S1x1024.Reduces [1] S1) (hφ : FKind.Formats .f32)
    (hacc : (0x00000000#32 : BitVec 32) = 0x00000000#32) (u : Fin 1) :
    multiReduction (F := Ideal) .add [1] S1 x 0x00000000#32 h hφ hacc (ix1 u) = ∑ q : Fin 1024, x (ix2 u q) := by
  refine (Ideal.multiReduction_add_single x 0x00000000#32 h hφ hacc (ix1 u)).trans ?_
  refine Finset.sum_congr rfl fun q _ => congrArg x (funext fun c => Fin.ext ?_)
  match c with
  | ⟨0, _⟩ => rfl
  | ⟨1, _⟩ => rfl

/-- The accumulated value after one grid point, from the four loaded blocks and the loaded accumulator. -/
theorem tile_payload (v3 : Vec Ideal S2048x256 .bf16) (v5 : Vec Ideal S1024x256 .bf16) (v12 : Vec Ideal S2048x1 .i32)
    (v14 : Vec Ideal S1x1024 .i32) (v29 : Vec Ideal S1x1 .f32) (y : S1x1.Idx) :
    k0_pay4 (F := Ideal) v3 v5 v12 v14 v29 y
      = v29 y + (0 - ∑ q : Fin 1024, ∑ p : Fin 2048,
          Ideal.log (Scalar.select (IntOp.cmpi .eq (v12 (ix2 p 0)) (v14 (ix2 0 q)))
            (min ((1 : ℝ) : EReal) (max (0 : EReal) (∑ k : Fin 256, v3 (ix2 p k) * v5 (ix2 q k))) + (shift : EReal))
            ((cOne : EReal) - min ((1 : ℝ) : EReal) (max (0 : EReal) (∑ k : Fin 256, v3 (ix2 p k) * v5 (ix2 q k)))))) := by
  obtain ⟨u, w, rfl⟩ : ∃ (u w : Fin 1), y = ix2 u w := ⟨y 0, y 1, eq_ix2 y⟩
  -- the words of the body: zero, the shift, the clip's bound one, and the constant c
  have hz : FloatOps.ofBits (F := Ideal) .f32 0x00000000#32 = 0 := Consts.ofBits_zero
  have hs : FloatOps.ofBits (F := Ideal) .f32 0x33D6BF95#32 = (shift : EReal) := Consts.ofBits_shift
  have hc1 : Named.named (F := Ideal) κ "a_exact_1" (φ := .f32) 0x3F800000#32 = ((1 : ℝ) : EReal) :=
    IdealRules.named_const.ideal_named_scalar Cert.KernelIdeal.κ "a_exact_1" _ _ rfl
  have hc2 : Named.named (F := Ideal) κ "one_plus_eps" (φ := .f32) 0x3F800001#32 = (cOne : EReal) :=
    IdealRules.named_const.ideal_named_scalar Cert.KernelIdeal.κ "one_plus_eps" _ _ rfl
  have hlog : ∀ (x : FVec Ideal S2048x1024 .f32) (i : S2048x1024.Idx), log x i = Ideal.log (x i) := fun _ _ => rfl
  have hcmp : ∀ (a b : IVec S2048x1024 32) (i : S2048x1024.Idx), cmpi .eq a b i = IntOp.cmpi .eq (a i) (b i) :=
    fun _ _ _ => rfl
  unfold k0_pay4
  -- the casts to the same shape are the identity; the last addition and subtraction act at the one entry,
  -- and the 1 x 1 result reads the one-entry vector of the second sum
  simp only [shapeCast_self, addf_apply, subf_apply, broadcast_apply, shapeCast_a_1a_apply]
  rw [hz]
  refine congrArg (fun t => v29 (ix2 u w) + (0 - t)) ?_
  -- the second sum runs over the columns q of the one row ...
  refine (sum_cols_at _ _ _ _ w).trans (Finset.sum_congr rfl fun q _ => ?_)
  -- ... whose entry at q is the first sum's entry at q, the sum over the rows p of column q
  refine (shapeCast_a_1a_apply _ _ w q).trans ?_
  refine (sum_rows_at _ _ _ _ q).trans (Finset.sum_congr rfl fun p _ => ?_)
  -- the entry (p, q) under the two sums: every operation left acts at the entry, the product is the sum
  -- over k, the code column is read at row p and the code row at column q
  simp only [hlog, select_apply, hcmp, addf_apply, subf_apply, minimumf_apply, maximumf_apply, broadcast_apply,
    product_at, broadcastTo_a1_ab_apply, broadcastTo_1b_ab_apply, hz, hs, hc1, hc2]

end Cert.PairLoss

end
-- ==== Proof.Sums.lean ====
/-
  The 8192 x 8192 pairs as 4 x 8 tiles of 2048 x 1024, and the running sum along a row of tiles.

  Row index  a * 2048 + p  (a < 4, p < 2048) and column index  b * 1024 + q  (b < 8, q < 1024) enumerate
  0 .. 8191 once each, so a double sum over all pairs is the sum over the 32 tiles of the tiles' sums.  The
  accumulator of tile row a after its tile k is minus the sum of the tiles 0 .. k of that row.
-/
import Mathlib.Algebra.BigOperators.Fin
import Mathlib.Algebra.BigOperators.Ring.Finset
import Mathlib.Data.Real.Basic
import Mathlib.Logic.Equiv.Fin.Basic
import Mathlib.Tactic.Ring

noncomputable section

namespace Cert.PairLoss

/-- Row p of tile row a. -/
def row (a : Fin 4) (p : Fin 2048) : Fin 8192 := ⟨a.val * 2048 + p.val, by omega⟩
/-- Column q of tile column b. -/
def col (b : Fin 8) (q : Fin 1024) : Fin 8192 := ⟨b.val * 1024 + q.val, by omega⟩

/-! ## Partial sums over an initial segment of eight terms

For g on 0 .. 7 write  S k = sum of g b over b ≤ k.  Then S 0 = g 0, S (k + 1) = S k + g (k + 1), and S 7
is the whole sum.  The step holds because "b ≤ k + 1" is "b ≤ k" or "b = k + 1", and the two exclude each
other, so the indicator of the first is the sum of the indicators of the other two. -/

/-- Only b = 0 satisfies b ≤ 0. -/
private theorem seg_zero (g : Fin 8 → ℝ) : (∑ b : Fin 8, if b.val ≤ 0 then g b else 0) = g 0 := by
  have h : ∀ b : Fin 8, (if b.val ≤ 0 then g b else 0) = if b = 0 then g b else 0 := by
    intro b
    have e : b.val ≤ 0 ↔ b = 0 := by
      constructor
      · intro hb; exact Fin.ext (by simpa using hb)
      · intro hb; rw [hb]; simp
    simp only [e]
  simp only [h, Finset.sum_ite_eq', Finset.mem_univ, if_true]

/-- One more term: the segment up to k + 1 is the segment up to k and the term k + 1. -/
private theorem seg_succ (g : Fin 8 → ℝ) (k : ℕ) (hk : k + 1 < 8) :
    (∑ b : Fin 8, if b.val ≤ k + 1 then g b else 0)
      = (∑ b : Fin 8, if b.val ≤ k then g b else 0) + g ⟨k + 1, hk⟩ := by
  have h : ∀ b : Fin 8, (if b.val ≤ k + 1 then g b else 0)
      = (if b.val ≤ k then g b else 0) + (if b = ⟨k + 1, hk⟩ then g b else 0) := by
    intro b
    by_cases h1 : b.val ≤ k
    · have h2 : b ≠ ⟨k + 1, hk⟩ := by intro e; rw [e] at h1; simp at h1
      rw [if_pos h1, if_pos (by omega), if_neg h2, add_zero]
    · by_cases h2 : b = ⟨k + 1, hk⟩
      · rw [if_neg h1, if_pos h2, if_pos (by rw [h2]), zero_add]
      · have h3 : ¬ b.val ≤ k + 1 := by
          intro h3; apply h2; apply Fin.ext; show b.val = k + 1; omega
        rw [if_neg h1, if_neg h2, if_neg h3, add_zero]
  simp only [h, Finset.sum_add_distrib, Finset.sum_ite_eq', Finset.mem_univ, if_true]

/-- Every b is at most 7. -/
private theorem seg_last (g : Fin 8 → ℝ) : (∑ b : Fin 8, if b.val ≤ 7 then g b else 0) = ∑ b : Fin 8, g b := by
  refine Finset.sum_congr rfl fun b _ => ?_
  rw [if_pos (by have := b.isLt; omega)]

variable (f : Fin 8192 → Fin 8192 → ℝ)

/-- The sum of f over tile (a, b), columns outermost (the order the kernel reduces in). -/
def tileSum (a : Fin 4) (b : Fin 8) : ℝ := ∑ q : Fin 1024, ∑ p : Fin 2048, f (row a p) (col b q)

/-- Minus the sum of the tiles 0 .. k of tile row a. -/
def accAt (a : Fin 4) (k : ℕ) : ℝ := -(∑ b : Fin 8, if b.val ≤ k then tileSum f a b else 0)

theorem accAt_zero (a : Fin 4) : accAt f a 0 = 0 + (0 - tileSum f a 0) := by
  unfold accAt
  rw [seg_zero]; ring

theorem accAt_succ (a : Fin 4) (k : ℕ) (hk : k + 1 < 8) :
    accAt f a (k + 1) = accAt f a k + (0 - tileSum f a ⟨k + 1, hk⟩) := by
  unfold accAt
  rw [seg_succ _ k hk]; ring

theorem accAt_last (a : Fin 4) : accAt f a 7 = -(∑ b : Fin 8, tileSum f a b) := by
  unfold accAt
  rw [seg_last]

/-! ## The two axes

Writing j = a * 2048 + p is division of j by 2048 with remainder, so (a, p) ↦ a * 2048 + p is a bijection of
{0..3} x {0..2047} with {0..8191}, and a sum over j is the iterated sum over a and p.  The same for columns
with 1024 and eight blocks. -/

/-- A sum over the 8192 rows, tile row by tile row. -/
private theorem sum_rows (g : Fin 8192 → ℝ) : (∑ j : Fin 8192, g j) = ∑ a : Fin 4, ∑ p : Fin 2048, g (row a p) := by
  have e : (∑ x : Fin 4 × Fin 2048, g ((finProdFinEquiv : Fin 4 × Fin 2048 ≃ Fin 8192) x)) = ∑ j : Fin 8192, g j :=
    Equiv.sum_comp (finProdFinEquiv : Fin 4 × Fin 2048 ≃ Fin 8192) g
  rw [← e, Fintype.sum_prod_type]
  refine Finset.sum_congr rfl fun a _ => Finset.sum_congr rfl fun p _ => ?_
  congr 1
  apply Fin.ext
  show p.val + 2048 * a.val = a.val * 2048 + p.val
  omega

/-- A sum over the 8192 columns, tile column by tile column. -/
private theorem sum_cols (g : Fin 8192 → ℝ) : (∑ i : Fin 8192, g i) = ∑ b : Fin 8, ∑ q : Fin 1024, g (col b q) := by
  have e : (∑ x : Fin 8 × Fin 1024, g ((finProdFinEquiv : Fin 8 × Fin 1024 ≃ Fin 8192) x)) = ∑ i : Fin 8192, g i :=
    Equiv.sum_comp (finProdFinEquiv : Fin 8 × Fin 1024 ≃ Fin 8192) g
  rw [← e, Fintype.sum_prod_type]
  refine Finset.sum_congr rfl fun b _ => Finset.sum_congr rfl fun q _ => ?_
  congr 1
  apply Fin.ext
  show q.val + 1024 * b.val = b.val * 1024 + q.val
  omega

/-- The tiles partition the pairs. -/
theorem sum_tiles : ∑ a : Fin 4, ∑ b : Fin 8, tileSum f a b = ∑ j : Fin 8192, ∑ i : Fin 8192, f j i := by
  rw [sum_rows (fun j => ∑ i : Fin 8192, f j i)]
  refine Finset.sum_congr rfl fun a _ => ?_
  -- inside tile row a: the sum over p of the row sums, each split by columns, reordered to (b, q, p)
  have h : ∀ p : Fin 2048, (∑ i : Fin 8192, f (row a p) i) = ∑ b : Fin 8, ∑ q : Fin 1024, f (row a p) (col b q) :=
    fun p => sum_cols (fun i => f (row a p) i)
  simp only [h]
  rw [Finset.sum_comm]
  refine Finset.sum_congr rfl fun b _ => ?_
  unfold tileSum
  rw [Finset.sum_comm]

/-- The four finished accumulators, summed from zero and divided by 8192 * 8192, are minus the mean. -/
theorem mean_of_rows : (0 + ∑ a : Fin 4, accAt f a 7) * (1 / (8192 * 8192)) = -(∑ j : Fin 8192, ∑ i : Fin 8192, f j i) / 67108864 := by
  simp only [accAt_last, Finset.sum_neg_distrib, sum_tiles]
  ring

end Cert.PairLoss

end
-- ==== Proof.Blocks.lean ====
/-
  The four input blocks at a grid point, read at an index.

  Grid point t of the 4 x 8 grid is tile (t / 8, t % 8).  The blocks the body loads there are rows
  (t / 8) * 2048 + p of the first matrix and of the first code column, and rows (t % 8) * 1024 + q of the
  second matrix and columns (t % 8) * 1024 + q of the second code row: a block's coordinate in its array is
  the block index times the block size plus the coordinate inside the block.
-/
import proofs.«428891_j80496277062328_3_alg».proof.Proof.Gen.KernelIdeal.Frame
import proofs.«428891_j80496277062328_3_alg».proof.Proof.Sums
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.PairLoss.Kernel

open Cert.KernelIdeal Cert.KernelIdeal.Gen

variable {F : FTy → Type} [FloatOps F] [Named F]
variable (m : (ℓ : Loc nD τ sig) → Buf (Elt F) ℓ)

/-- The tile row and tile column of a grid point. -/
def tileRow (t : Fin cfg0.N) : Fin 4 := ⟨t.val / 8, by have := t.isLt; have : cfg0.N = 32 := N_0; omega⟩
def tileCol (t : Fin cfg0.N) : Fin 8 := ⟨t.val % 8, Nat.mod_lt _ (by norm_num)⟩

/-- The five index maps over the grid: block (t / 8, 0), (t % 8, 0), (t / 8, 0), (0, t % 8) and (t / 8, 0, 0). -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem index3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem index4 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- The blocks, each named at its literal type. -/
abbrev blk0 (c : Dev nD) (t : Fin cfg0.N) : Vec F S2048x256 .bf16 := iblk m c 0 t
abbrev blk1 (c : Dev nD) (t : Fin cfg0.N) : Vec F S1024x256 .bf16 := iblk m c 1 t
abbrev blk2 (c : Dev nD) (t : Fin cfg0.N) : Vec F S2048x1 .i32 := iblk m c 2 t
abbrev blk3 (c : Dev nD) (t : Fin cfg0.N) : Vec F S1x1024 .i32 := iblk m c 3 t

/-- Block 0 at (p, k) is the first matrix at row (t / 8) * 2048 + p. -/
theorem blk0_apply (c : Dev nD) (t : Fin cfg0.N) (p : Fin 2048) (k : Fin 256) :
    blk0 m c t (ix2 p k) = V m c main_v8 (ix2 (row (tileRow t) p) k) := by
  unfold blk0 iblk
  rw [View.read_apply]
  show V m c main_v8 _ = V m c main_v8 _
  congr 1
  funext a
  apply Fin.ext
  match a with
  | ⟨0, _⟩ => show win0_0.index t 0 * 2048 + 1 * p.val = t.val / 8 * 2048 + p.val; rw [(index0 t).1]; omega
  | ⟨1, _⟩ => show win0_0.index t 1 * 256 + 1 * k.val = k.val; rw [(index0 t).2]; omega

/-- Block 1 at (q, k) is the second matrix at row (t % 8) * 1024 + q. -/
theorem blk1_apply (c : Dev nD) (t : Fin cfg0.N) (q : Fin 1024) (k : Fin 256) :
    blk1 m c t (ix2 q k) = V m c main_v9 (ix2 (col (tileCol t) q) k) := by
  unfold blk1 iblk
  rw [View.read_apply]
  show V m c main_v9 _ = V m c main_v9 _
  congr 1
  funext a
  apply Fin.ext
  match a with
  | ⟨0, _⟩ => show win0_1.index t 0 * 1024 + 1 * q.val = t.val % 8 * 1024 + q.val; rw [(index1 t).1]; omega
  | ⟨1, _⟩ => show win0_1.index t 1 * 256 + 1 * k.val = k.val; rw [(index1 t).2]; omega

/-- Block 2 at (p, 0) is the first code column at row (t / 8) * 2048 + p. -/
theorem blk2_apply (c : Dev nD) (t : Fin cfg0.N) (p : Fin 2048) (u : Fin 1) :
    blk2 m c t (ix2 p u) = V m c main_v3 (ix2 (row (tileRow t) p) u) := by
  unfold blk2 iblk
  rw [View.read_apply]
  show V m c main_v3 _ = V m c main_v3 _
  congr 1
  funext a
  apply Fin.ext
  match a with
  | ⟨0, _⟩ => show win0_2.index t 0 * 2048 + 1 * p.val = t.val / 8 * 2048 + p.val; rw [(index2 t).1]; omega
  | ⟨1, _⟩ => show win0_2.index t 1 * 1 + 1 * u.val = u.val; rw [(index2 t).2]; omega

/-- Block 3 at (0, q) is the second code row at column (t % 8) * 1024 + q. -/
theorem blk3_apply (c : Dev nD) (t : Fin cfg0.N) (u : Fin 1) (q : Fin 1024) :
    blk3 m c t (ix2 u q) = V m c main_v7 (ix2 u (col (tileCol t) q)) := by
  unfold blk3 iblk
  rw [View.read_apply]
  show V m c main_v7 _ = V m c main_v7 _
  congr 1
  funext a
  apply Fin.ext
  match a with
  | ⟨0, _⟩ => show win0_3.index t 0 * 1 + 1 * u.val = u.val; rw [(index3 t).1]; omega
  | ⟨1, _⟩ => show win0_3.index t 1 * 1024 + 1 * q.val = t.val % 8 * 1024 + q.val; rw [(index3 t).2]; omega

end Cert.PairLoss.Kernel

end
-- ==== Proof.HostPrefix.lean ====
/-
  The four arrays the kernel's windows stage, as the region finds them: the two matrices unchanged (a change of
  float format is the identity on the extended reals), and the two code arrays, where a row whose mask is not
  one carries the sentinel -1 (first kind, a column vector) or -2 (second kind, a row vector) in place of its
  label.
-/
import proofs.«428891_j80496277062328_3_alg».proof.Proof.Gen.KernelIdeal.Frame
import proofs.«428891_j80496277062328_3_alg».proof.Proof.LibColumn
import Idealize.ShloMosaic.Lib.Pipeline.Value
import Idealize.ShloMosaic.Lib.ValueIdx
import Idealize.ShloMosaic.Lib.ValueLayout
import Idealize.ShloMosaic.Lib.Affine
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.PairLoss.Kernel

open Cert.KernelIdeal Cert.KernelIdeal.Gen

variable (m : (ℓ : Loc nD τ sig) → Buf (Elt Ideal) ℓ)

/-- The first staged matrix is the sixth argument. -/
theorem V_v8 (c : Dev nD) : (V m c main_v8 : S8192x256.Idx → EReal)
    = truncf (F := Ideal) .bf16 (m ((c : Thread nD τ).loc main_arg5)) bitsLt_bf16_f32 := by
  dsimp only [V, V0]
  simp only [hostOps0, hostOps0_1, hostOps0_2, hostOps0_3, hostOps0_4, List.flatten_cons, List.flatten_nil, List.append_nil, List.cons_append, List.nil_append]
  after_results

/-- The second staged matrix is the fifth argument. -/
theorem V_v9 (c : Dev nD) : (V m c main_v9 : S8192x256.Idx → EReal)
    = truncf (F := Ideal) .bf16 (m ((c : Thread nD τ).loc main_arg4)) bitsLt_bf16_f32 := by
  dsimp only [V, V0]
  simp only [hostOps0, hostOps0_1, hostOps0_2, hostOps0_3, hostOps0_4, List.flatten_cons, List.flatten_nil, List.append_nil, List.cons_append, List.nil_append]
  after_results

/-- The code column: the second argument where the fourth is one, else -1, as an 8192 x 1 array. -/
theorem V_v3 (c : Dev nD) : (V m c main_v3 : S8192x1.Idx → BitVec 32) =
    shapeCast S8192x1 (select (cmpi .eq (m ((c : Thread nD τ).loc main_arg3)) (broadcastInDim S8192 ![] bcast_S_S8192 (constantI S_ 32 1#32)))
      (m ((c : Thread nD τ).loc main_arg1)) (broadcastInDim S8192 ![] bcast_S_S8192 (constantI S_ 32 4294967295#32))) shapeCasts_S8192_S8192x1 := by
  dsimp only [V, V0]
  simp only [hostOps0, hostOps0_1, hostOps0_2, hostOps0_3, hostOps0_4, List.flatten_cons, List.flatten_nil, List.append_nil, List.cons_append, List.nil_append]
  after_results
  rfl

/-- The code row: the first argument where the third is one, else -2, as a 1 x 8192 array. -/
theorem V_v7 (c : Dev nD) : (V m c main_v7 : S1x8192.Idx → BitVec 32) =
    shapeCast S1x8192 (select (cmpi .eq (m ((c : Thread nD τ).loc main_arg2)) (broadcastInDim S8192 ![] bcast_S_S8192 (constantI S_ 32 1#32)))
      (m ((c : Thread nD τ).loc main_arg0)) (broadcastInDim S8192 ![] bcast_S_S8192 (constantI S_ 32 4294967294#32))) shapeCasts_S8192_S1x8192 := by
  dsimp only [V, V0]
  simp only [hostOps0, hostOps0_1, hostOps0_2, hostOps0_3, hostOps0_4, List.flatten_cons, List.flatten_nil, List.append_nil, List.cons_append, List.nil_append]
  after_results
  rfl

/-- A select on the equality of a word with one is the conditional on that equality. -/
theorem select_eq_one (x g s : BitVec 32) :
    Scalar.select (IntOp.cmpi .eq x 1#32) g s = if x = 1#32 then g else s := by
  by_cases h : x = 1#32
  · rw [if_pos h, IntOp.cmpi_eq.2 h, select_one]
  · rw [if_neg h, eq_zero_of_ne_one (fun e => h (IntOp.cmpi_eq.1 e)), select_zero]

/-- The matrices at an index. -/
theorem V_v8_apply (c : Dev nD) (j : Fin 8192) (k : Fin 256) :
    (V m c main_v8 : S8192x256.Idx → EReal) (ix2 j k) = m ((c : Thread nD τ).loc main_arg5) (ix2 j k) := by
  rw [V_v8]; rfl
theorem V_v9_apply (c : Dev nD) (i : Fin 8192) (k : Fin 256) :
    (V m c main_v9 : S8192x256.Idx → EReal) (ix2 i k) = m ((c : Thread nD τ).loc main_arg4) (ix2 i k) := by
  rw [V_v9]; rfl

/-- The code column at row j. -/
theorem V_v3_apply (c : Dev nD) (j : Fin 8192) (u : Fin 1) :
    (V m c main_v3 : S8192x1.Idx → BitVec 32) (ix2 j u)
      = if m ((c : Thread nD τ).loc main_arg3) (ix1 j) = 1#32 then m ((c : Thread nD τ).loc main_arg1) (ix1 j) else 4294967295#32 := by
  rw [V_v3, shapeCast_a_a1_apply]
  exact select_eq_one _ _ _

/-- The code row at column i. -/
theorem V_v7_apply (c : Dev nD) (u : Fin 1) (i : Fin 8192) :
    (V m c main_v7 : S1x8192.Idx → BitVec 32) (ix2 u i)
      = if m ((c : Thread nD τ).loc main_arg2) (ix1 i) = 1#32 then m ((c : Thread nD τ).loc main_arg0) (ix1 i) else 4294967294#32 := by
  rw [V_v7, shapeCast_a_1a_apply]
  exact select_eq_one _ _ _

end Cert.PairLoss.Kernel

end
-- ==== Proof.Terms.lean ====
/-
  One pair's term, in the two spellings the programs use, on the domain.

  The first spelling is  -(t * log (P + s) + (1 - t) * log ((1 - P) + s))  with t the target as 0 or 1:
  one factor is zero, and zero times anything is zero on the extended reals, so the term is minus the one
  logarithm that survives.  The second is  log (select target (clip P + s) (c - clip P))  with c = 1 + s
  and the clip to [0, c'] for some c' ≥ 1: on [0, 1] the clip is the identity and  c - P = (1 - P) + s.  Both are the real
  number  pairLog j i  (up to the sign), so sums of them are sums of reals.
-/
import proofs.«428891_j80496277062328_3_alg».proof.Proof.Spec

noncomputable section

namespace Cert.PairLoss

open Idealize.ShloMosaic Idealize.ShloMosaic.ValueIdx

/-- A finite sum of reals, read in the extended reals. -/
theorem sum_coe {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A one-bit word is zero or one. -/
theorem bit_cases (b : BitVec 1) : b = 0#1 ∨ b = 1#1 := by
  rcases Nat.lt_or_ge b.toNat 1 with h | h
  · left; apply BitVec.eq_of_toNat_eq; simp; omega
  · right; apply BitVec.eq_of_toNat_eq; have := b.isLt; simp; omega

variable {gt1 gt2 mk1 mk2 : Sh8192.Idx → BitVec 32} {p1 p2 : Sh8192x256.Idx → EReal}

/-- The first spelling: the two masked logarithms, negated. -/
theorem masked_term (hd : Dom gt1 gt2 p1 p2) {j i : Fin 8192} (b : BitVec 1) (hb : b = 1#1 ↔ Hit gt1 gt2 mk1 mk2 j i) :
    -(((b.toNat : ℝ) : EReal) * Ideal.log (pairDot p1 p2 j i + (shift : EReal))
        + ((1 : EReal) - ((b.toNat : ℝ) : EReal)) * Ideal.log (((1 : EReal) - pairDot p1 p2 j i) + (shift : EReal)))
      = ((-(pairLog gt1 gt2 mk1 mk2 p1 p2 j i) : ℝ) : EReal) := by
  rcases bit_cases b with rfl | rfl
  · have h : ¬Hit gt1 gt2 mk1 mk2 j i := fun h => absurd (hb.2 h) (by decide)
    rw [log_miss hd h]
    simp only [BitVec.toNat_ofNat, Nat.zero_mod, Nat.cast_zero, EReal.coe_zero, zero_mul, zero_add, sub_zero, one_mul,
      EReal.coe_neg]
  · have h : Hit gt1 gt2 mk1 mk2 j i := hb.1 rfl
    rw [log_hit hd h]
    have e : ((1 : EReal) - (((1#1 : BitVec 1).toNat : ℝ) : EReal)) = 0 := by
      have h1 : (((1#1 : BitVec 1).toNat : ℝ)) = 1 := by simp
      rw [h1, ← EReal.coe_one, ← EReal.coe_sub, sub_self, EReal.coe_zero]
    rw [e, zero_mul, add_zero]
    simp only [BitVec.toNat_ofNat, Nat.reducePow, Nat.reduceMod, Nat.cast_one, EReal.coe_one, one_mul, EReal.coe_neg]

/-- The second spelling: one logarithm of the selected, clipped argument. -/
theorem selected_term (hd : Dom gt1 gt2 p1 p2) {j i : Fin 8192} (b : BitVec 1) (hb : b = 1#1 ↔ Hit gt1 gt2 mk1 mk2 j i)
    (c' c : ℝ) (hc' : 1 ≤ c') (hc : c = 1 + shift) :
    Ideal.log (Scalar.select b
        (min (c' : EReal) (max (0 : EReal) (pairDot p1 p2 j i)) + (shift : EReal))
        ((c : EReal) - min (c' : EReal) (max (0 : EReal) (pairDot p1 p2 j i))))
      = ((pairLog gt1 gt2 mk1 mk2 p1 p2 j i : ℝ) : EReal) := by
  obtain ⟨r, hr, h0, h1⟩ := real_of_range (hd.dot_range j i).1 (hd.dot_range j i).2
  have hclip : min (c' : EReal) (max (0 : EReal) (pairDot p1 p2 j i)) = pairDot p1 p2 j i := by
    rw [hr]; exact clip_id h0 h1 hc'
  rw [hclip]
  rcases bit_cases b with rfl | rfl
  · have h : ¬Hit gt1 gt2 mk1 mk2 j i := fun h => absurd (hb.2 h) (by decide)
    rw [select_zero, hc]; exact log_miss' hd h
  · rw [select_one]; exact log_hit hd (hb.1 rfl)

end Cert.PairLoss

end
-- ==== Proof.Tile.lean ====
/-
  One grid point's update of the accumulator, on the domain: if the accumulator holds the real r before grid
  point t, it holds  r + (0 - T)  after it, where T is the sum of the pairs' logarithms over the tile
  (t / 8, t % 8).  The blocks the body loads are rows of the staged arrays (the two matrices themselves and
  the two code arrays), the equality of two codes is the pair's target, and the body's selected, clipped
  logarithm is the pair's logarithm.
-/
import proofs.«428891_j80496277062328_3_alg».proof.Proof.TileValue
import proofs.«428891_j80496277062328_3_alg».proof.Proof.Blocks
import proofs.«428891_j80496277062328_3_alg».proof.Proof.HostPrefix
import proofs.«428891_j80496277062328_3_alg».proof.Proof.Terms
import proofs.«428891_j80496277062328_3_alg».proof.Proof.Sums

set_option maxRecDepth 16384

noncomputable section

open Idealize.ShloMosaic Idealize.ShloMosaic.TcCoe Idealize.SL.Sem Idealize.ShloMosaic.ValueIdx

namespace Cert.PairLoss.Kernel

open Cert.KernelIdeal Cert.KernelIdeal.Gen

variable (m : (ℓ : Loc nD τ sig) → Buf (Elt Ideal) ℓ)

/-- The pairs' logarithms of the kernel's six argument arrays on core c. -/
abbrev pairLogOf (c : Dev nD) : Fin 8192 → Fin 8192 → ℝ :=
  pairLog (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The domain, of those arrays. -/
abbrev DomOf (c : Dev nD) : Prop :=
  Dom (m ((c : Thread nD τ).loc main_arg0)) (m ((c : Thread nD τ).loc main_arg1)) (m ((c : Thread nD τ).loc main_arg4))
    (m ((c : Thread nD τ).loc main_arg5))

/-! ## One pair inside the tile

Entry (p, q) of tile (a, b) is the pair (j, i) with j = a * 2048 + p and i = b * 1024 + q.  Row p of the first
block is row j of the sixth argument and row q of the second block is row i of the fifth, so the sum over k of
their products is the pair's product.  The two loaded codes are the label of j (or -1 where j is masked out)
and the label of i (or -2 where i is masked out); labels are non-negative, so the codes agree exactly when the
pair's target holds.  The selected, clipped logarithm is then the pair's logarithm. -/

/-- The product of the two loaded rows is the pair's product. -/
theorem tile_dot (c : Dev nD) (t : Fin cfg0.N) (q : Fin 1024) (p : Fin 2048) :
    (∑ k : Fin 256, blk0 m c t (ix2 p k) * blk1 m c t (ix2 q k))
      = pairDot (m ((c : Thread nD τ).loc main_arg4)) (m ((c : Thread nD τ).loc main_arg5)) (row (tileRow t) p) (col (tileCol t) q) := by
  unfold pairDot
  refine Finset.sum_congr rfl fun k _ => ?_
  rw [blk0_apply (F := Ideal) m c t p k, blk1_apply (F := Ideal) m c t q k, V_v8_apply, V_v9_apply]

/-- The body's term at entry (p, q) is the pair's logarithm. -/
theorem tile_term (c : Dev nD) (hd : DomOf m c) (t : Fin cfg0.N) (q : Fin 1024) (p : Fin 2048) :
    Ideal.log (Scalar.select (IntOp.cmpi .eq (blk2 m c t (ix2 p 0)) (blk3 m c t (ix2 0 q)))
        (min ((1 : ℝ) : EReal) (max (0 : EReal) (∑ k : Fin 256, blk0 m c t (ix2 p k) * blk1 m c t (ix2 q k))) + (shift : EReal))
        ((cOne : EReal) - min ((1 : ℝ) : EReal) (max (0 : EReal) (∑ k : Fin 256, blk0 m c t (ix2 p k) * blk1 m c t (ix2 q k)))))
      = ((pairLogOf m c (row (tileRow t) p) (col (tileCol t) q) : ℝ) : EReal) := by
  rw [tile_dot m c t q p, blk2_apply (F := Ideal) m c t p 0, blk3_apply (F := Ideal) m c t 0 q, V_v3_apply, V_v7_apply]
  exact selected_term hd _
    (IntOp.cmpi_eq.trans (code_eq_iff (hd.gt2_nonneg (row (tileRow t) p)) (hd.gt1_nonneg (col (tileCol t) q))))
    1 cOne le_rfl one_add_shift

/-- The accumulator after grid point t, from a real accumulator before it. -/
theorem tile_update (c : Dev nD) (hd : DomOf m c) (t : Fin cfg0.N) (xs0 : Vec Ideal S1x1 .f32) (r : ℝ)
    (hxs : xs0 = fun _ => ((r : ℝ) : EReal)) :
    k0_pay1 (F := Ideal) (k0_pay4 (F := Ideal) (blk0 m c t) (blk1 m c t) (blk2 m c t) (blk3 m c t) xs0)
      = fun _ => ((r + (0 - tileSum (pairLogOf m c) (tileRow t) (tileCol t)) : ℝ) : EReal) := by
  funext y
  unfold k0_pay1
  rw [shapeCast_self]
  refine (tile_payload (blk0 m c t) (blk1 m c t) (blk2 m c t) (blk3 m c t) xs0 y).trans ?_
  subst hxs
  -- the accumulator is the real r; once the double sum is the real T, the rest is arithmetic of reals
  have key : ∀ (S : EReal) (T : ℝ), S = ((T : ℝ) : EReal) → ((r : ℝ) : EReal) + (0 - S) = ((r + (0 - T) : ℝ) : EReal) := by
    intro S T hS
    rw [hS, ← EReal.coe_zero, ← EReal.coe_sub, ← EReal.coe_add]
  refine key _ _ ?_
  -- the double sum, term by term, is the sum of the pairs' logarithms over the tile
  unfold tileSum
  refine (Finset.sum_congr rfl fun q _ => ?_).trans
    (sum_coe Finset.univ fun q : Fin 1024 => ∑ p : Fin 2048, pairLogOf m c (row (tileRow t) p) (col (tileCol t) q))
  refine (Finset.sum_congr rfl fun p _ => ?_).trans
    (sum_coe Finset.univ fun p : Fin 2048 => pairLogOf m c (row (tileRow t) p) (col (tileCol t) q))
  exact tile_term m c hd t q p

end Cert.PairLoss.Kernel

end
-- ==== Proof.Accumulate.lean ====
/-
  The accumulator along a row of tiles.

  Grid point t = 8 a + b updates the one-element accumulator by  acc + (0 - T a b),  T a b the sum of the
  pairs' logarithms over tile (a, b), starting from a stored zero when b = 0.  By induction on the point, the
  accumulator after point t holds minus the sum of T a 0 .. T a b, and the last point of row a (b = 7) also
  leaves that number, splat over 1 x 8 x 128, in the output block.
-/
import proofs.«428891_j80496277062328_3_alg».proof.Proof.Pieces
import proofs.«428891_j80496277062328_3_alg».proof.Proof.Tile
import proofs.«428891_j80496277062328_3_alg».proof.Proof.Sums
import proofs.«428891_j80496277062328_3_alg».proof.Proof.Consts

set_option maxRecDepth 16384

noncomputable section

open Idealize.ShloMosaic Idealize.ShloMosaic.TcCoe Idealize.SL.Sem Idealize.ShloMosaic.ValueIdx

namespace Cert.PairLoss.Kernel

open Cert.KernelIdeal Cert.KernelIdeal.Gen

variable (m : (ℓ : Loc nD τ sig) → Buf (Elt Ideal) ℓ)

/-- The stored zero is the real zero. -/
theorem zero_scratch : (k0_pay3 (F := Ideal)) = fun _ => ((0 : ℝ) : EReal) := by
  unfold k0_pay3
  dsimp only
  rw [shapeCast_self]
  funext y
  show Ideal.ofBits .f32 0x00000000#32 = _
  rw [Consts.ofBits_zero, EReal.coe_zero]

/-- A splat of the one entry of a constant 1 x 1 array is the constant. -/
theorem splat_const (z : EReal) : k0_pay2 (F := Ideal) (fun _ => z) = fun _ => z := rfl

/-- The first point of a tile row leaves  0 + (0 - T a 0). -/
theorem scratch_first (c : Dev nD) (hd : DomOf m c) (t : Fin cfg0.N) (h0 : t.val % 8 = 0) (h1 : ¬t.val % 8 = 7) :
    (outsAt0 m c t.val t.isLt).2 = fun _ => ((accAt (pairLogOf m c) (tileRow t) 0 : ℝ) : EReal) := by
  rw [outsAt0_A m c t h0 h1]
  dsimp only
  refine (scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).trans ?_
  refine (tile_update m c hd t (k0_pay3 (F := Ideal)) 0 zero_scratch).trans ?_
  have hcol : tileCol t = 0 := Fin.ext h0
  rw [hcol, accAt_zero]

/-- A later point of a tile row adds  0 - T a b  to what the point before left. -/
theorem scratch_next (c : Dev nD) (hd : DomOf m c) (t : Fin cfg0.N) (h0 : ¬t.val % 8 = 0) (r : ℝ)
    (hprev : (outsAt0 m c (t.val - 1) (Nat.lt_of_le_of_lt (Nat.sub_le _ _) t.isLt)).2 = fun _ => ((r : ℝ) : EReal)) :
    (outsAt0 m c t.val t.isLt).2 = fun _ => ((r + (0 - tileSum (pairLogOf m c) (tileRow t) (tileCol t)) : ℝ) : EReal) := by
  by_cases h1 : t.val % 8 = 7
  · rw [outsAt0_C m c t h0 h1]
    dsimp only
    refine (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans ?_
    exact tile_update m c hd t _ r hprev
  · rw [outsAt0_B m c t h0 h1]
    dsimp only
    refine (scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2).trans ?_
    exact tile_update m c hd t _ r hprev

/-- The accumulator after point n: minus the sum of the tiles 0 .. n % 8 of tile row n / 8. -/
theorem scratch_at (c : Dev nD) (hd : DomOf m c) : ∀ (n : ℕ) (h : n < cfg0.N),
    (outsAt0 m c n h).2 = fun _ => ((accAt (pairLogOf m c) (tileRow ⟨n, h⟩) (n % 8) : ℝ) : EReal)
  | 0, h => scratch_first m c hd ⟨0, h⟩ rfl (show ¬(0 : ℕ) % 8 = 7 by decide)
  | n + 1, h => by
    by_cases h0 : (n + 1) % 8 = 0
    · have h1 : ¬(n + 1) % 8 = 7 := by omega
      rw [h0]
      exact scratch_first m c hd ⟨n + 1, h⟩ h0 h1
    · have ih := scratch_at c hd n (Nat.lt_of_succ_lt h)
      have hrow : tileRow ⟨n, Nat.lt_of_succ_lt h⟩ = tileRow ⟨n + 1, h⟩ := Fin.ext (by show n / 8 = (n + 1) / 8; omega)
      have hk : n % 8 + 1 < 8 := by omega
      have hcol : tileCol ⟨n + 1, h⟩ = ⟨n % 8 + 1, hk⟩ := Fin.ext (by show (n + 1) % 8 = n % 8 + 1; omega)
      rw [scratch_next m c hd ⟨n + 1, h⟩ h0 _ ih, hrow, hcol, show (n + 1) % 8 = n % 8 + 1 by omega, accAt_succ]

/-- The last point of a tile row leaves the finished accumulator in the output block. -/
theorem out_last (c : Dev nD) (hd : DomOf m c) (t : Fin cfg0.N) (h7 : t.val % 8 = 7) :
    (outsAt0 m c t.val t.isLt).1 = fun _ => ((accAt (pairLogOf m c) (tileRow t) 7 : ℝ) : EReal) := by
  have h0 : ¬t.val % 8 = 0 := by omega
  have hs := scratch_at m c hd t.val t.isLt
  rw [h7] at hs
  rw [outsAt0_C m c t h0 h7]
  dsimp only
  refine (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2).trans ?_
  have hsc : k0_pay1 (F := Ideal) (k0_pay4 (F := Ideal) (iblk m c 0 t) (iblk m c 1 t) (iblk m c 2 t) (iblk m c 3 t) (outsAt0 m c (t.val - 1) (Nat.lt_of_le_of_lt (Nat.sub_le _ _) t.isLt)).2)
      = fun _ => ((accAt (pairLogOf m c) (tileRow t) 7 : ℝ) : EReal) := by
    rw [← hs, outsAt0_C m c t h0 h7]
    dsimp only
    exact (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2).symm
  rw [hsc]
  exact splat_const _

end Cert.PairLoss.Kernel

end
-- ==== Proof.Output.lean ====
/-
  The output array after the run.  Its block (a, 0, 0) is written back once, after the last grid point 8 a + 7
  of tile row a, and the four blocks tile the 4 x 8 x 128 array; so if that point leaves the constant G a in
  the output's staging buffer, the array ends holding G a at every (a, u, v).
-/
import proofs.«428891_j80496277062328_3_alg».proof.Proof.Gen.KernelIdeal.Frame
import proofs.«428891_j80496277062328_3_alg».proof.Proof.Blocks
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.PairLoss.Kernel

open Cert.KernelIdeal Cert.KernelIdeal.Gen

variable (m : (ℓ : Loc nD τ sig) → Buf (Elt Ideal) ℓ)

/-- The array that holds G a on the whole of its a-th 8 x 128 slab. -/
def slabs (G : Fin 4 → EReal) : S4x8x128.Idx → EReal := fun i => G ⟨(i 0).val, (i 0).isLt⟩

theorem slabs_apply (G : Fin 4 → EReal) (a : Fin 4) (u : Fin 8) (v : Fin 128) : slabs G (ix3 a u v) = G a := rfl

/-- An index of the array lies in the block of grid point t exactly when, on each axis, its coordinate is at
    least the block index times the block's extent and less than that plus the extent. -/
private theorem mem_blk4 (t : Fin cfg0.N) (i : S4x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v10).slice (win0_4.rect t)).set ↔ _
  rw [View.set_slice_whole, Rect.mem_set_unit]
  exact Iff.rfl

/-- What a point t ≡ 7 (mod 8) writes back is its block of the slab array: the staging buffer holds the constant
    G (t / 8) there, and the block's element (0, u, v) sits at (t / 8, u, v) of the array (block index t / 8 times
    the extent 1, plus the coordinate 0 inside the block), where the slab array is G (t / 8) too. -/
private theorem flushed_eq (c : Dev nD) (G : Fin 4 → EReal)
    (hlast : ∀ t : Fin cfg0.N, t.val % 8 = 7 → (outsAt0 m c t.val t.isLt).1 = fun _ => G (tileRow t))
    (t : Fin cfg0.N) (hf : (cfg0.win 4).flush t = true) :
    (dats m 0 c).flushed 4 t = ((cfg0.win 4).blk t).view.read (Elt Ideal) (slabs G) := by
  show (cfg0.win 4).cut (grid0.coords t) ((dats m 0 c).after 4 t) = _
  rw [after0_4, hlast t ((flush0_4 t).mp hf)]
  funext y
  rw [View.read_apply]
  show G (tileRow t) = slabs G (((cfg0.win 4).blk t).view.emb y)
  unfold slabs
  congr 1
  apply Fin.ext
  have hy : (y 0).val < 1 := (y 0).isLt
  show t.val / 8 = win0_4.index t 0 * 1 + 1 * (y 0).val
  rw [(index4 t).1]
  omega

/-- Every index (a, u, v) of the array lies in the block of a point that writes back: the point 8 a + 7, whose
    block index is (a, 0, 0), so that its block is the whole slab {a} x [0, 8) x [0, 128). -/
private theorem cover4 (i : S4x8x128.Idx) :
    ∃ t : Fin cfg0.N, (cfg0.win 4).flush t = true ∧ i ∈ ((cfg0.win 4).blk t).view.set := by
  have hN : cfg0.N = 32 := N_0
  have h0 : (i 0).val < 4 := (i 0).isLt
  have h1 : (i 1).val < 8 := (i 1).isLt
  have h2 : (i 2).val < 128 := (i 2).isLt
  obtain ⟨t, ht⟩ : ∃ t : Fin cfg0.N, t.val = 8 * (i 0).val + 7 := ⟨⟨8 * (i 0).val + 7, by omega⟩, rfl⟩
  refine ⟨t, (flush0_4 t).mpr (by omega), ?_⟩
  rw [mem_blk4]
  obtain ⟨e0, e1, e2⟩ := index4 t
  intro a
  match a with
  | ⟨0, _⟩ => show win0_4.index t 0 * 1 ≤ (i 0).val ∧ (i 0).val < win0_4.index t 0 * 1 + 1; omega
  | ⟨1, _⟩ => show win0_4.index t 1 * 8 ≤ (i 1).val ∧ (i 1).val < win0_4.index t 1 * 8 + 8; omega
  | ⟨2, _⟩ => show win0_4.index t 2 * 128 ≤ (i 2).val ∧ (i 2).val < win0_4.index t 2 * 128 + 128; omega

/-- The output array after the last grid point. -/
theorem final_out (c : Dev nD) (G : Fin 4 → EReal)
    (hlast : ∀ t : Fin cfg0.N, t.val % 8 = 7 → (outsAt0 m c t.val t.isLt).1 = fun _ => G (tileRow t)) :
    (dats m 0 c).arrAt 4 cfg0.N = (slabs G : Buf (Elt Ideal) ((c : Thread nD τ).loc main_v10)) :=
  (dats m 0 c).arrAt_eq_of_cover 4 (slabs G) (flushed_eq m c G hlast) cover4

end Cert.PairLoss.Kernel

end
-- ==== Proof.TailValue.lean ====
/-
  The host operations after the kernel: entry (a, 0, 0) of the 4 x 8 x 128 array of finished accumulators is
  sliced out for each tile row a, the four are summed from zero, and the sum is divided by 8192 * 8192.
-/
import proofs.«428891_j80496277062328_3_alg».proof.KernelIdeal
import proofs.«428891_j80496277062328_3_alg».proof.Proof.Gen.KernelIdeal
import proofs.«428891_j80496277062328_3_alg».proof.Proof.Terms
import proofs.«428891_j80496277062328_3_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.PairLoss

open Idealize.ShloMosaic Idealize.ShloMosaic.ValueIdx Cert.KernelIdeal Cert.KernelIdeal.Gen

/-- A sum over a rank-one index set is the sum over its coordinate. -/
theorem sum_ix1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The slice [0:4, 0:1, 0:1] of the array, reshaped to length 4, holds at a the array's entry (a, 0, 0): the
    reshape keeps the row-major position, (a * 1 + 0) * 1 + 0 = a, and the slice starts at the origin. -/
theorem slice_entry (A : S4x8x128.Idx → EReal) (a : Fin 4) :
    shapeCast S4 (extractStridedSlice S4x1x1 ![0, 0, 0] A slices_S4x8x128_S4x1x1_0_0_0) shapeCasts_S4x1x1_S4 (ix1 a)
      = A (ix3 a (0 : Fin 8) (0 : Fin 128)) := by
  rw [shapeCast_apply _ shapeCasts_S4x1x1_S4 (ix1 a) (ix3 a (0 : Fin 1) (0 : Fin 1))
    (by rw [Shape.rowMajor_val_three, Shape.rowMajor_val_one]; simp)]
  exact extractStridedSlice_apply _ A slices_S4x8x128_S4x1x1_0_0_0 _ (ix3 a (0 : Fin 8) (0 : Fin 128)) (fun b => by
    match b with
    | ⟨0, _⟩ => exact (Nat.zero_add _).symm
    | ⟨1, _⟩ => rfl
    | ⟨2, _⟩ => rfl)

/-- If the array holds the real r a at (a, 0, 0) for each of the four tile rows, the host's tail computes
    (0 + r 0 + r 1 + r 2 + r 3) / (8192 * 8192). -/
theorem tail_value (A : S4x8x128.Idx → EReal) (r : Fin 4 → ℝ) (hA : ∀ a : Fin 4, A (ix3 a (0 : Fin 8) (0 : Fin 128)) = ((r a : ℝ) : EReal)) :
    Host.divf (F := Ideal)
        (Host.reduceAdd (F := Ideal)
          (shapeCast S4 (extractStridedSlice S4x1x1 ![0, 0, 0] A slices_S4x8x128_S4x1x1_0_0_0) shapeCasts_S4x1x1_S4)
          (constant (F := Ideal) S_ .f32 0x00000000#32) reducesTo_S4_S_d0 h_S_)
        (mulf (constant (F := Ideal) S_ .f32 0x46000000#32) (constant (F := Ideal) S_ .f32 0x46000000#32))
      = fun _ => (((0 + ∑ a : Fin 4, r a) * (1 / (8192 * 8192)) : ℝ) : EReal) := by
  funext i
  -- the quotient of (zero plus the sum of the four sliced entries) by the product 8192 * 8192
  simp only [Host.divf, Host.reduceAdd, Ideal.hostDivf_def, Ideal.hostReduceAdd_def, mulf_apply, constant_apply]
  -- the sum into the scalar is the total over the four indices, each entry the given real
  rw [Ideal.hostReduceAdd_total reducesTo_S4_S_d0 (fun b => b.elim0), sum_ix1]
  simp only [slice_entry, hA, sum_coe]
  -- the literals' values; dividing by a nonzero real is multiplying by its inverse, inside the reals
  rw [Consts.ofBits_zero, Consts.ofBits_8192, ← EReal.coe_mul, zero_add,
    Ideal.div_coe (by norm_num : (8192 * 8192 : ℝ) ≠ 0), ← EReal.coe_mul]
  congr 1
  ring

end Cert.PairLoss

end
-- ==== Proof.KernelRun.lean ====
/-
  The kernel program's run, read: on the domain its result buffer ends holding the mean loss of its six
  arguments, and the arguments end unchanged.  The output array holds, on its a-th slab, the finished
  accumulator of tile row a (minus the sum of that row's eight tiles); the host's tail adds the four from zero
  and divides by 8192 * 8192; the tiles partition the pairs, so this is minus the mean of the 2^26 logarithms.
-/
import proofs.«428891_j80496277062328_3_alg».proof.Proof.Accumulate
import proofs.«428891_j80496277062328_3_alg».proof.Proof.Output
import proofs.«428891_j80496277062328_3_alg».proof.Proof.TailValue
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.PairLoss.Kernel

open Cert.KernelIdeal Cert.KernelIdeal.Gen

variable (m : (ℓ : Loc nD τ sig) → Buf (Elt Ideal) ℓ) (ρ : Dev nD → PrngReg)

/-- The mean loss of the kernel's six argument arrays on core c. -/
abbrev meanLossOf (c : Dev nD) : EReal :=
  meanLoss (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The finished accumulator of tile row a. -/
abbrev rowAcc (c : Dev nD) (a : Fin 4) : ℝ := accAt (pairLogOf m c) a 7

/-- The output array after the region: slab a holds the finished accumulator of tile row a. -/
theorem out_array (c : Dev nD) (hd : DomOf m c) :
    (dats m 0 c).arrAt 4 cfg0.N = (slabs (fun a => ((rowAcc m c a : ℝ) : EReal)) : Buf (Elt Ideal) ((c : Thread nD τ).loc main_v10)) :=
  final_out m c (fun a => ((rowAcc m c a : ℝ) : EReal)) (fun t h7 => out_last m c hd t h7)

/-- What the host operations after the region leave in the result buffer. -/
theorem tail_eq (c : Dev nD) (hd : DomOf m c) :
    Pipeline.afterTail₀ cfgs (dats m) 0 (V0 m) [hostOps1] c main_v15 = fun _ => meanLossOf m c := by
  unfold Pipeline.afterTail₀
  show StableHlo.after hostOps1 _ (Proc.devRef .tc main_v15) = _
  after_results
  have hA : Pipeline.withArrays (cfgs 0).spec c (V0 m c) (fun w => (dats m 0 c).arrAt w (cfgs 0).N) (Proc.devRef .tc main_v10)
      = (slabs (fun a => ((rowAcc m c a : ℝ) : EReal)) : Buf (Elt Ideal) ((c : Thread nD τ).loc main_v10)) :=
    (Pipeline.withArrays_arr spec0 launch0.win.arr_inj c _ _ 4).trans (out_array m c hd)
  show Host.divf (F := Ideal)
      (Host.reduceAdd (F := Ideal)
        (shapeCast S4 (extractStridedSlice S4x1x1 ![0, 0, 0]
          (Pipeline.withArrays (cfgs 0).spec c (V0 m c) (fun w => (dats m 0 c).arrAt w (cfgs 0).N) (Proc.devRef .tc main_v10))
          slices_S4x8x128_S4x1x1_0_0_0) shapeCasts_S4x1x1_S4)
        (constant (F := Ideal) S_ .f32 0x00000000#32) reducesTo_S4_S_d0 h_S_)
      (mulf (constant (F := Ideal) S_ .f32 0x46000000#32) (constant (F := Ideal) S_ .f32 0x46000000#32)) = _
  rw [hA, tail_value (slabs (fun a => ((rowAcc m c a : ℝ) : EReal))) (rowAcc m c) (fun a => slabs_apply _ a 0 0)]
  funext _
  unfold meanLossOf meanLoss rowAcc
  rw [mean_of_rows]

/-- The run: the result buffer at the mean loss, the six arguments as launched. -/
theorem run (hd : ∀ c, DomOf m c) :
    θ_run defs (onTc (τ := τ) (main (F := Ideal))) ⟨m, fun _ => 0, ρ⟩ (fun r => ∀ c : Dev nD,
      r.2.mem ((c.tc : Thread nD τ).loc main_v15) = (fun _ => meanLossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v15 (Pipeline.mem_restRefs_of main_v15 (by decide) (by decide))).trans (tail_eq m c (hd c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.PairLoss.Kernel

end
-- ==== Proof.RefValue.lean ====
/-
  The reference's result is the mean loss: its 41 host operations, read one at a time at an index, are the
  first spelling of a pair's term summed over all pairs and divided by 2^26.
-/
import proofs.«428891_j80496277062328_3_alg».proof.Proof.Gen.ReferenceIdeal.Read
import proofs.«428891_j80496277062328_3_alg».proof.Proof.Terms
import proofs.«428891_j80496277062328_3_alg».proof.Proof.Consts

noncomputable section

namespace Cert.PairLoss

open Idealize.ShloMosaic Idealize.ShloMosaic.ValueIdx Cert.ReferenceIdeal Cert.ReferenceIdeal.Gen

/-- The target of the pair (j, i), as the one-bit word the reference computes: the conjunction of the three
    equality tests is one exactly when the labels agree and both masks are one. -/
theorem target_bit (x0 x1 x2 x3 : Sh8192.Idx → BitVec 32) (j i : Fin 8192) :
    IntOp.andi (IntOp.andi (IntOp.cmpi .eq (x1 (ix1 j)) (x0 (ix1 i))) (IntOp.cmpi .eq (x3 (ix1 j)) 1#32))
        (IntOp.cmpi .eq (x2 (ix1 i)) 1#32) = 1#1 ↔ Hit x0 x1 x2 x3 j i := by
  unfold Hit
  rw [IntOp.andi_eq_one, IntOp.andi_eq_one, IntOp.cmpi_eq, IntOp.cmpi_eq, IntOp.cmpi_eq, and_assoc]

/-! ## Where the element (j, i) reads its operands

The labels and masks of the second kind are broadcast along the rows (they are read at j), those of the first
kind along the columns (read at i); the product reads row j of the second matrix and row i of the first. -/

theorem row_of_pair (j i : Fin 8192) : Read.idx_main_v0 (Read.idx_main_v2 (ix2 j i)) = ix1 j :=
  funext fun a => Fin.ext (by match a with | ⟨0, _⟩ => rfl)
theorem col_of_pair (j i : Fin 8192) : Read.idx_main_v1 (Read.idx_main_v3 (ix2 j i)) = ix1 i :=
  funext fun a => Fin.ext (by match a with | ⟨0, _⟩ => rfl)
theorem row_of_pair' (j i : Fin 8192) : Read.idx_main_v5 (Read.idx_main_v8 (ix2 j i)) = ix1 j :=
  funext fun a => Fin.ext (by match a with | ⟨0, _⟩ => rfl)
theorem col_of_pair' (j i : Fin 8192) : Read.idx_main_v10 (Read.idx_main_v13 (ix2 j i)) = ix1 i :=
  funext fun a => Fin.ext (by match a with | ⟨0, _⟩ => rfl)
theorem left_of_pair (j i : Fin 8192) (k : Fin 256) : Read.lidx_main_v16 (ix2 j i) k = ix2 j k :=
  funext fun a => Fin.ext (by match a with | ⟨0, _⟩ => rfl | ⟨1, _⟩ => rfl)
theorem right_of_pair (j i : Fin 8192) (k : Fin 256) : Read.ridx_main_v16 (ix2 j i) k = ix2 i k :=
  funext fun a => Fin.ext (by match a with | ⟨0, _⟩ => rfl | ⟨1, _⟩ => rfl)

/-- One pair: the negated sum of the two masked logarithms at the index (j, i) is minus the pair's logarithm. -/
theorem ref_pair (x0 x1 x2 x3 : Sh8192.Idx → BitVec 32) (x4 x5 : Sh8192x256.Idx → EReal) (hd : Dom x0 x1 x4 x5)
    (j i : Fin 8192) :
    Read.val_main_v30 (F := Ideal) x0 x1 x2 x3 x4 x5 (ix2 j i) = ((-(pairLog x0 x1 x2 x3 x4 x5 j i) : ℝ) : EReal) := by
  rw [Read.val_main_v30_apply, Read.val_main_v29_apply, Read.val_main_v20_apply, Read.val_main_v28_apply,
    Read.val_main_v19_apply, Read.val_main_v22_apply, Read.val_main_v15_apply, Read.val_main_v27_apply,
    Read.val_main_v18_apply, Read.val_main_v26_apply, Read.val_main_v24_apply, Read.val_main_v16_apply,
    Read.val_main_v17_apply, Read.val_main_v25_apply, Read.val_main_v21_apply, Read.val_main_v23_apply,
    Read.val_main_v14_apply, Read.val_main_v9_apply, Read.val_main_v13_apply, Read.val_main_v4_apply,
    Read.val_main_v8_apply, Read.val_main_v12_apply, Read.val_main_v2_apply, Read.val_main_v3_apply,
    Read.val_main_v7_apply, Read.val_main_v10_apply, Read.val_main_v11_apply, Read.val_main_v0_apply,
    Read.val_main_v1_apply, Read.val_main_v5_apply, Read.val_main_v6_apply,
    Read.val_main_cst_apply, Read.val_main_cst_1_apply, Read.val_main_cst_2_apply, Read.val_main_cst_3_apply,
    Read.val_main_c_apply, Read.val_main_c_0_apply,
    row_of_pair, col_of_pair, row_of_pair', col_of_pair']
  simp only [left_of_pair, right_of_pair, Ideal.hostNegf_def, Ideal.negf_def, Ideal.addf_def, Ideal.mulf_def,
    Ideal.subf_def, Ideal.hostUnary_log_def, Ideal.ofBits_def, Consts.ofBits_one, Consts.ofBits_shift]
  exact masked_term hd _ (target_bit x0 x1 x2 x3 j i)

/-- On the domain the reference's result buffer holds the mean loss of its six arguments
    (x0 = gt1, x1 = gt2, x2 = mask1, x3 = mask2, x4 = prob_1, x5 = prob_2). -/
theorem ref_value (x0 x1 x2 x3 : Sh8192.Idx → BitVec 32) (x4 x5 : Sh8192x256.Idx → EReal) (hd : Dom x0 x1 x4 x5) :
    Cert.ReferenceIdeal.Read.val_main_v32 (F := Ideal) x0 x1 x2 x3 x4 x5 = fun _ => meanLoss x0 x1 x2 x3 x4 x5 := by
  funext i
  -- the quotient of (zero plus the sum over all pairs of the negated terms) by the number of pairs
  rw [Read.val_main_v32_apply, Read.val_main_v31_apply, Read.val_main_cst_4_apply, Read.val_main_cst_5_apply,
    Ideal.hostDivf_def, Ideal.ofBits_def, Ideal.ofBits_def, Consts.ofBits_zero, Consts.ofBits_pairs, zero_add]
  -- the sum over the index pairs is the double sum over rows and columns, each term a real number
  rw [sum_idx2]
  simp only [ref_pair x0 x1 x2 x3 x4 x5 hd, sum_coe]
  -- dividing by 2^26 is multiplying by its inverse, inside the reals
  rw [Ideal.div_coe (by norm_num : (67108864 : ℝ) ≠ 0), ← EReal.coe_mul]
  unfold meanLoss
  congr 1
  simp only [Finset.sum_neg_distrib]
  ring

end Cert.PairLoss

end
-- ==== Proof.PreDecode.lean ====
/-
  The printed precondition, decoded: where it evaluates to one, the labels are non-negative and every
  pairwise product lies between zero and one.

  The precondition is a conjunction of six "for all entries" tests, each an and-fold of a one-bit array
  started at one.  A conjunction of bits is one exactly when every bit is one, and an and-fold started at
  one is one exactly when every entry is one; so each test holds at every index.  Read at an index, the
  two integer tests say  0 ≤ gt1 i  and  0 ≤ gt2 j  as signed numbers, and the two tests on the product
  matrix say  0 ≤ P (j, i)  and  P (j, i) ≤ 1  in the extended reals, where the entry (j, i) of the
  product of prob_2 with the transpose of prob_1 is the sum over k of prob_2 (j, k) * prob_1 (i, k).
-/
import proofs.«428891_j80496277062328_3_alg».proof.Pre_finite_inputs
import proofs.«428891_j80496277062328_3_alg».proof.Proof.Gen.Pre_finite_inputs
import proofs.«428891_j80496277062328_3_alg».proof.Proof.Spec
import proofs.«428891_j80496277062328_3_alg».proof.Proof.Consts
import Idealize.ShloMosaic.Lib.ReduceAll
import Idealize.ShloMosaic.PureOps.Ideal.Laws

noncomputable section

namespace Cert.PairLoss

open Idealize.ShloMosaic Idealize.ShloMosaic.ValueIdx

namespace PreDecode

/-- There is exactly one index into an array with no axes. -/
instance subsingleton_scalarIdx : Subsingleton Cert.Pre_finite_inputs.S_.Idx :=
  ⟨fun a b => funext fun d => d.elim0⟩

/-! ## A comparison of extended reals read back -/

/-- The test "x ≥ y" came out one: y ≤ x. -/
theorem le_of_cmp_oge {x y : EReal} (h : Ideal.cmp .oge x y = 1#1) : y ≤ x := by
  by_contra hn
  have : Ideal.cmp .oge x y = 0#1 := by simp only [Ideal.cmp, decide_eq_false hn]; rfl
  rw [this] at h
  exact absurd h (by decide)

/-- The test "x ≤ y" came out one: x ≤ y. -/
theorem le_of_cmp_ole {x y : EReal} (h : Ideal.cmp .ole x y = 1#1) : x ≤ y := by
  by_contra hn
  have : Ideal.cmp .ole x y = 0#1 := by simp only [Ideal.cmp, decide_eq_false hn]; rfl
  rw [this] at h
  exact absurd h (by decide)

/-! ## The product matrix at an entry

The product contracts axis 1 of both operands and keeps axis 0 of each: the left operand is read at
(row of the result, k) and the right one at (column of the result, k). -/

theorem lhs_dot_0 (i : Cert.Pre_finite_inputs.S8192x8192.Idx) (q : Cert.Pre_finite_inputs.dot_S8192x256_S8192x256_S8192x8192_1_1_0_0_n_n.contr.Idx) :
    (Cert.Pre_finite_inputs.dot_S8192x256_S8192x256_S8192x8192_1_1_0_0_n_n.lhsIdx i q 0).val = (i 0).val := by
  unfold DotDims.lhsIdx
  rw [dif_neg (show ¬(0 : Fin Cert.Pre_finite_inputs.S8192x256.rank) ∈ Cert.Pre_finite_inputs.dot_S8192x256_S8192x256_S8192x8192_1_1_0_0_n_n.lhsBatch by decide),
    dif_pos (show (0 : Fin Cert.Pre_finite_inputs.S8192x256.rank) ∈ Cert.Pre_finite_inputs.dot_S8192x256_S8192x256_S8192x8192_1_1_0_0_n_n.lhsNonContracting by decide)]
  rfl

theorem lhs_dot_1 (i : Cert.Pre_finite_inputs.S8192x8192.Idx) (q : Cert.Pre_finite_inputs.dot_S8192x256_S8192x256_S8192x8192_1_1_0_0_n_n.contr.Idx) :
    (Cert.Pre_finite_inputs.dot_S8192x256_S8192x256_S8192x8192_1_1_0_0_n_n.lhsIdx i q 1).val = (q ⟨0, by decide⟩).val :=
  Cert.Pre_finite_inputs.dot_S8192x256_S8192x256_S8192x8192_1_1_0_0_n_n.lhsIdx_val_of_single rfl i q

theorem rhs_dot_0 (i : Cert.Pre_finite_inputs.S8192x8192.Idx) (q : Cert.Pre_finite_inputs.dot_S8192x256_S8192x256_S8192x8192_1_1_0_0_n_n.contr.Idx) :
    (Cert.Pre_finite_inputs.dot_S8192x256_S8192x256_S8192x8192_1_1_0_0_n_n.rhsIdx i q 0).val = (i 1).val := by
  unfold DotDims.rhsIdx
  rw [dif_neg (show ¬(0 : Fin Cert.Pre_finite_inputs.S8192x256.rank) ∈ Cert.Pre_finite_inputs.dot_S8192x256_S8192x256_S8192x8192_1_1_0_0_n_n.rhsBatch by decide),
    dif_pos (show (0 : Fin Cert.Pre_finite_inputs.S8192x256.rank) ∈ Cert.Pre_finite_inputs.dot_S8192x256_S8192x256_S8192x8192_1_1_0_0_n_n.rhsNonContracting by decide)]
  rfl

theorem rhs_dot_1 (i : Cert.Pre_finite_inputs.S8192x8192.Idx) (q : Cert.Pre_finite_inputs.dot_S8192x256_S8192x256_S8192x8192_1_1_0_0_n_n.contr.Idx) :
    (Cert.Pre_finite_inputs.dot_S8192x256_S8192x256_S8192x8192_1_1_0_0_n_n.rhsIdx i q 1).val = (q ⟨0, by decide⟩).val :=
  Cert.Pre_finite_inputs.dot_S8192x256_S8192x256_S8192x8192_1_1_0_0_n_n.rhsIdx_val_of_single rfl i q

/-- Entry (j, i) of the product of p2 with the transpose of p1 is the pair's product. -/
theorem dot_apply (p1 p2 : Sh8192x256.Idx → EReal) (j i : Fin 8192) :
    Host.dotGeneral (F := Ideal) (φ₁ := .f32) (φ₂ := .f32) Cert.Pre_finite_inputs.dot_S8192x256_S8192x256_S8192x8192_1_1_0_0_n_n none p2 p1 (ix2 j i)
      = pairDot p1 p2 j i := by
  unfold pairDot
  simp only [Host.dotGeneral]
  rw [Ideal.dotGeneral_apply, ← Equiv.sum_comp (ValueIdx.contrEquiv1 Cert.Pre_finite_inputs.dot_S8192x256_S8192x256_S8192x8192_1_1_0_0_n_n 256 rfl rfl).symm]
  refine Finset.sum_congr rfl fun k _ => ?_
  have hk := ValueIdx.contrEquiv1_symm_val Cert.Pre_finite_inputs.dot_S8192x256_S8192x256_S8192x8192_1_1_0_0_n_n 256 rfl rfl k
  have el : Cert.Pre_finite_inputs.dot_S8192x256_S8192x256_S8192x8192_1_1_0_0_n_n.lhsIdx (ix2 j i) ((ValueIdx.contrEquiv1 Cert.Pre_finite_inputs.dot_S8192x256_S8192x256_S8192x8192_1_1_0_0_n_n 256 rfl rfl).symm k) = ix2 j k :=
    funext fun a => Fin.ext (by
      match a with
      | ⟨0, _⟩ => exact lhs_dot_0 _ _
      | ⟨1, _⟩ => exact (lhs_dot_1 _ _).trans hk)
  have er : Cert.Pre_finite_inputs.dot_S8192x256_S8192x256_S8192x8192_1_1_0_0_n_n.rhsIdx (ix2 j i) ((ValueIdx.contrEquiv1 Cert.Pre_finite_inputs.dot_S8192x256_S8192x256_S8192x8192_1_1_0_0_n_n 256 rfl rfl).symm k) = ix2 i k :=
    funext fun a => Fin.ext (by
      match a with
      | ⟨0, _⟩ => exact rhs_dot_0 _ _
      | ⟨1, _⟩ => exact (rhs_dot_1 _ _).trans hk)
  rw [el, er]

end PreDecode

open PreDecode in
/-- The precondition gives the domain (x0 = gt1, x1 = gt2, x2 = mask1, x3 = mask2, x4 = prob_1, x5 = prob_2). -/
theorem dom_of_pre (x0 x1 x2 x3 : Sh8192.Idx → BitVec 32) (x4 x5 : Sh8192x256.Idx → EReal)
    (h : Cert.Pre_finite_inputs.fn (F := Ideal) x0 x1 x2 x3 x4 x5 = (fun _ => 1#1)) : Dom x0 x1 x4 x5 := by
  have h0 := congrFun h ValueIdx.ix0
  dsimp only [Cert.Pre_finite_inputs.fn, Cert.Pre_finite_inputs.fn_part1] at h0
  -- the conjunction of the six tests is one: each test is one
  obtain ⟨h0, hle⟩ := IntOp.andi_eq_one.1 h0
  obtain ⟨h0, hge⟩ := IntOp.andi_eq_one.1 h0
  obtain ⟨h0, hg2⟩ := IntOp.andi_eq_one.1 h0
  obtain ⟨-, hg1⟩ := IntOp.andi_eq_one.1 h0
  -- an and-fold over all entries is one: every entry is one
  have a1 := Host.reduce_andi_all _ _ _ _ _ hg1
  have a2 := Host.reduce_andi_all _ _ _ _ _ hg2
  have age := Host.reduce_andi_all _ _ _ _ _ hge
  have ale := Host.reduce_andi_all _ _ _ _ _ hle
  refine ⟨fun i => ?_, fun j => ?_, fun j i => ⟨?_, ?_⟩⟩
  · -- 0 ≤ gt1 i, signed
    have e : IntOp.cmpi .sge (x0 (ix1 i)) 0#32 = 1#1 := a1 (ix1 i)
    exact IntOp.cmpi_sge.1 e
  · -- 0 ≤ gt2 j, signed
    have e : IntOp.cmpi .sge (x1 (ix1 j)) 0#32 = 1#1 := a2 (ix1 j)
    exact IntOp.cmpi_sge.1 e
  · -- 0 ≤ P (j, i)
    have e : Ideal.cmp .oge
        (Host.dotGeneral (F := Ideal) (φ₁ := .f32) (φ₂ := .f32) Cert.Pre_finite_inputs.dot_S8192x256_S8192x256_S8192x8192_1_1_0_0_n_n none x5 x4 (ix2 j i))
        (Ideal.ofBits .f32 0x00000000#32) = 1#1 := age (ix2 j i)
    rw [dot_apply, Consts.ofBits_zero] at e
    exact le_of_cmp_oge e
  · -- P (j, i) ≤ 1
    have e : Ideal.cmp .ole
        (Host.dotGeneral (F := Ideal) (φ₁ := .f32) (φ₂ := .f32) Cert.Pre_finite_inputs.dot_S8192x256_S8192x256_S8192x8192_1_1_0_0_n_n none x5 x4 (ix2 j i))
        (Ideal.ofBits .f32 0x3F800000#32) = 1#1 := ale (ix2 j i)
    rw [dot_apply, Consts.ofBits_one] at e
    exact le_of_cmp_ole e

end Cert.PairLoss

end
-- ==== Proof.lean ====
/-
  The certificate of the pairwise cross-entropy kernel against its jnp reference.

  Both programs compute minus the mean, over the 2^26 pairs (j, i), of  log (P + s)  where the pair's target
  holds and  log (1 - P + s)  where it does not; P = sum_k prob_2 (j, k) * prob_1 (i, k), the target is
  "gt2 j = gt1 i and mask2 j = 1 and mask1 i = 1", s = 14073749 / 2^47.  The reference spells a pair's term
  as two masked logarithms; the kernel codes a masked-out row by a sentinel label (-1 or -2), compares codes,
  clips P to [0, 1], takes one logarithm of  clip + s  or  c - clip,  sums 2048 x 1024 tiles into a
  one-element accumulator along each of four tile rows, and lets the host add the four and divide by
  8192 * 8192.  The constant c is the kernel's folded  1 + s,  named the exact sum of the reference's own two
  literals; the kernel's own literal one is named one.

  The precondition adds to finiteness: labels non-negative (so a label is never a sentinel), and every
  pairwise product in [0, 1] (so both logarithms are of positive reals and the clip is the identity).  On that
  domain every term is a real number, the two spellings agree pair by pair, and the tiles partition the
  pairs.

  The three frames are the generated runs; the kernel's value is read off its generated frame run by
  induction over the grid points; the reference's value is read off its generated run one operation at a time.
-/
import proofs.«428891_j80496277062328_3_alg».proof.Defs
import proofs.«428891_j80496277062328_3_alg».proof.Proof.Gen.Kernel
import proofs.«428891_j80496277062328_3_alg».proof.Proof.Gen.Kernel.Skeleton
import proofs.«428891_j80496277062328_3_alg».proof.Proof.Gen.Kernel.Launch
import proofs.«428891_j80496277062328_3_alg».proof.Proof.Gen.Kernel.Points
import proofs.«428891_j80496277062328_3_alg».proof.Proof.Gen.Kernel.Frame
import proofs.«428891_j80496277062328_3_alg».proof.Proof.Gen.KernelIdeal
import proofs.«428891_j80496277062328_3_alg».proof.Proof.Gen.KernelIdeal.Skeleton
import proofs.«428891_j80496277062328_3_alg».proof.Proof.Gen.KernelIdeal.Launch
import proofs.«428891_j80496277062328_3_alg».proof.Proof.Gen.KernelIdeal.Points
import proofs.«428891_j80496277062328_3_alg».proof.Proof.Gen.KernelIdeal.Frame
import proofs.«428891_j80496277062328_3_alg».proof.Proof.Gen.ReferenceIdeal
import proofs.«428891_j80496277062328_3_alg».proof.Proof.Gen.ReferenceIdeal.Run
import proofs.«428891_j80496277062328_3_alg».proof.Proof.Gen.ReferenceIdeal.Read
import proofs.«428891_j80496277062328_3_alg».proof.Proof.Gen.Pre_finite_inputs
import proofs.«428891_j80496277062328_3_alg».proof.Proof.KernelRun
import proofs.«428891_j80496277062328_3_alg».proof.Proof.RefValue
import proofs.«428891_j80496277062328_3_alg».proof.Proof.PreDecode
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The table gives the literal one the value one and the folded constant the value 1 + s; each printed constant
    is its name's value. -/
theorem preserves : Cert.preserves_Kernel_KernelIdeal :=
  ⟨IdealRules.named_const.statement Cert.KernelIdeal.κ "a_exact_1" .f32 0x3F800000#32 ((1 : ℝ) : EReal) rfl,
    IdealRules.named_const.statement Cert.KernelIdeal.κ "one_plus_eps" .f32 0x3F800001#32
      ((140737502429077 / 140737488355328 : ℝ) : EReal) rfl⟩

/-- From memories that agree on the six arguments, both programs end with the mean loss of those arguments in
    their result buffers. -/
theorem algebraic : Cert.algebraic_KernelIdeal_ReferenceIdeal := by
  intro m ρ m' ρ' hpre hagree
  have hd : ∀ c, Cert.PairLoss.Kernel.DomOf m c := fun c => Cert.PairLoss.dom_of_pre _ _ _ _ _ _ (hpre c)
  refine ⟨fun c => fun _ => Cert.PairLoss.Kernel.meanLossOf m c, Cert.PairLoss.Kernel.run m ρ hd, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v32_eq _ _ _ _ _ _).trans (Cert.PairLoss.ref_value _ _ _ _ _ _ (hd c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
